-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x2558x2048 : Shape := ⟨3, ![8, 2558, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x2558x2048 : S_.BroadcastsInDim S8x2558x2048 (![] : Fin 0 → Fin S8x2558x2048.rank)
  reducesTo_S8x2558x2048_S_d0_1_2 : S8x2558x2048.ReducesTo [0, 1, 2] S_

variable [Facts]

def fn {F : FTy → Type} [FloatOps F] (main_arg0 : FVec F S8x1024x2048 .f32) (main_arg1 : FVec F S8x2558x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x2558x2048 .f32 := Host.absf main_arg1
  let main_cst_0 : FVec F S_ .f32 := constant S_ .f32 0x7F800000#32
  let main_v5 : FVec F S8x2558x2048 .f32 := broadcastInDim S8x2558x2048 ![] bcast_S_S8x2558x2048 main_cst_0
  let main_v6 : IVec S8x2558x2048 1 := cmpf .olt main_v4 main_v5
  let main_c_1 : IVec S_ 1 := constantI S_ 1 1#1
  let main_v7 : IVec S_ 1 := (fun x v => Host.reduce IntOp.andi x v reducesTo_S8x2558x2048_S_d0_1_2 h_S_) main_v6 main_c_1
  let main_v8 : IVec S_ 1 := andi main_v3 main_v7
  main_v8
-- ==== Kernel.lean ====
abbrev S8x1024x2048 : Shape := ⟨3, ![8, 1024, 2048]⟩
abbrev S8x2558x2048 : Shape := ⟨3, ![8, 2558, 2048]⟩
abbrev S1x2558x256 : Shape := ⟨3, ![1, 2558, 256]⟩
abbrev S1x1024x256 : Shape := ⟨3, ![1, 1024, 256]⟩
abbrev S2558x256 : Shape := ⟨2, ![2558, 256]⟩
abbrev S1024x256 : Shape := ⟨2, ![1024, 256]⟩
abbrev S3582x256 : Shape := ⟨2, ![3582, 256]⟩
abbrev S2048x256 : Shape := ⟨2, ![2048, 256]⟩
abbrev S512x256 : Shape := ⟨2, ![512, 256]⟩
abbrev S512x2x256 : Shape := ⟨3, ![512, 2, 256]⟩
abbrev S256x256 : Shape := ⟨2, ![256, 256]⟩
abbrev S128x2x256 : Shape := ⟨3, ![128, 2, 256]⟩
abbrev S128x256 : Shape := ⟨2, ![128, 256]⟩
abbrev S768x256 : Shape := ⟨2, ![768, 256]⟩
abbrev S896x256 : Shape := ⟨2, ![896, 256]⟩
abbrev S64x2x256 : Shape := ⟨3, ![64, 2, 256]⟩
abbrev S64x256 : Shape := ⟨2, ![64, 256]⟩
abbrev S832x256 : Shape := ⟨2, ![832, 256]⟩
abbrev S32x2x256 : Shape := ⟨3, ![32, 2, 256]⟩
abbrev S32x256 : Shape := ⟨2, ![32, 256]⟩
abbrev S800x256 : Shape := ⟨2, ![800, 256]⟩
abbrev S16x2x256 : Shape := ⟨3, ![16, 2, 256]⟩
abbrev S16x256 : Shape := ⟨2, ![16, 256]⟩
abbrev S784x256 : Shape := ⟨2, ![784, 256]⟩
abbrev S8x2x256 : Shape := ⟨3, ![8, 2, 256]⟩
abbrev S8x256 : Shape := ⟨2, ![8, 256]⟩
abbrev S776x256 : Shape := ⟨2, ![776, 256]⟩
abbrev S4x2x256 : Shape := ⟨3, ![4, 2, 256]⟩
abbrev S4x256 : Shape := ⟨2, ![4, 256]⟩
abbrev S772x256 : Shape := ⟨2, ![772, 256]⟩
abbrev S2x2x256 : Shape := ⟨3, ![2, 2, 256]⟩
abbrev S2x256 : Shape := ⟨2, ![2, 256]⟩
abbrev S770x256 : Shape := ⟨2, ![770, 256]⟩
abbrev S1x2x256 : Shape := ⟨3, ![1, 2, 256]⟩
abbrev S1x256 : Shape := ⟨2, ![1, 256]⟩

abbrev nBuf : Space → Nat
  | .hbm => 3
  | .vmem => 6
  | .smem => 0
  | _ => 0

abbrev bufTy : (tb : Table) → Fin (tcTables nBuf tb) → BufTy
  | .hbm, ⟨0, _⟩ => ⟨S8x1024x2048, .f32⟩
  | .hbm, ⟨1, _⟩ => ⟨S8x2558x2048, .f32⟩
  | .hbm, ⟨2, _⟩ => ⟨S8x2558x2048, .f32⟩
  | .local _ .vmem, ⟨0, _⟩ => ⟨S1x2558x256, .f32⟩
  | .local _ .vmem, ⟨1, _⟩ => ⟨S1x2558x256, .f32⟩
  | .local _ .vmem, ⟨2, _⟩ => ⟨S1x1024x256, .f32⟩
  | .local _ .vmem, ⟨3, _⟩ => ⟨S1x1024x256, .f32⟩
  | .local _ .vmem, ⟨4, _⟩ => ⟨S1x2558x256, .f32⟩
  | .local _ .vmem, ⟨5, _⟩ => ⟨S1x2558x256, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2558x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2558x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2558x256_S1x2558x256_0_0_0 : ∀ a, (![0, 0, 0] : Fin 3 → Nat) a + S1x2558x256.size a ≤ S1x2558x256.size a
  h_S1x2558x256 : 0 < S1x2558x256.numel
  shapeCasts_S1x2558x256_S2558x256 : S1x2558x256.ShapeCasts S2558x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  concatenates_S2558x256_S1024x256_S3582x256_d0 : Shape.Concatenates [S2558x256, S1024x256] S3582x256 0
  slices_S3582x256_o512_0_S2048x256 : S3582x256.Slices ![512, 0] S2048x256
  slices_S3582x256_o0_0_S512x256 : S3582x256.Slices ![0, 0] S512x256
  slices_S2048x256_o0_0_S1024x256 : S2048x256.Slices ![0, 0] S1024x256
  shapeCasts_S1024x256_S512x2x256 : S1024x256.ShapeCasts S512x2x256
  reduces_S512x2x256_S512x256 : S512x2x256.Reduces [1] S512x256
  concatenates_S512x256_S512x256_S1024x256_d0 : Shape.Concatenates [S512x256, S512x256] S1024x256 0
  slices_S1024x256_o768_0_S256x256 : S1024x256.Slices ![768, 0] S256x256
  shapeCasts_S256x256_S128x2x256 : S256x256.ShapeCasts S128x2x256
  reduces_S128x2x256_S128x256 : S128x2x256.Reduces [1] S128x256
  slices_S1024x256_o0_0_S768x256 : S1024x256.Slices ![0, 0] S768x256
  concatenates_S768x256_S128x256_S896x256_d0 : Shape.Concatenates [S768x256, S128x256] S896x256 0
  slices_S256x256_o128_0_S128x256 : S256x256.Slices ![128, 0] S128x256
  concatenates_S128x256_S128x256_S256x256_d0 : Shape.Concatenates [S128x256, S128x256] S256x256 0
  slices_S896x256_o768_0_S128x256 : S896x256.Slices ![768, 0] S128x256
  shapeCasts_S128x256_S64x2x256 : S128x256.ShapeCasts S64x2x256
  reduces_S64x2x256_S64x256 : S64x2x256.Reduces [1] S64x256
  slices_S896x256_o0_0_S768x256 : S896x256.Slices ![0, 0] S768x256
  concatenates_S768x256_S64x256_S832x256_d0 : Shape.Concatenates [S768x256, S64x256] S832x256 0
  slices_S128x256_o64_0_S64x256 : S128x256.Slices ![64, 0] S64x256
  concatenates_S64x256_S64x256_S128x256_d0 : Shape.Concatenates [S64x256, S64x256] S128x256 0
  slices_S832x256_o768_0_S64x256 : S832x256.Slices ![768, 0] S64x256
  shapeCasts_S64x256_S32x2x256 : S64x256.ShapeCasts S32x2x256
  reduces_S32x2x256_S32x256 : S32x2x256.Reduces [1] S32x256
  slices_S832x256_o0_0_S768x256 : S832x256.Slices ![0, 0] S768x256
  concatenates_S768x256_S32x256_S800x256_d0 : Shape.Concatenates [S768x256, S32x256] S800x256 0
  slices_S64x256_o32_0_S32x256 : S64x256.Slices ![32, 0] S32x256
  concatenates_S32x256_S32x256_S64x256_d0 : Shape.Concatenates [S32x256, S32x256] S64x256 0
  slices_S800x256_o768_0_S32x256 : S800x256.Slices ![768, 0] S32x256
  shapeCasts_S32x256_S16x2x256 : S32x256.ShapeCasts S16x2x256
  reduces_S16x2x256_S16x256 : S16x2x256.Reduces [1] S16x256
  slices_S800x256_o0_0_S768x256 : S800x256.Slices ![0, 0] S768x256
  concatenates_S768x256_S16x256_S784x256_d0 : Shape.Concatenates [S768x256, S16x256] S784x256 0
  slices_S32x256_o16_0_S16x256 : S32x256.Slices ![16, 0] S16x256
  concatenates_S16x256_S16x256_S32x256_d0 : Shape.Concatenates [S16x256, S16x256] S32x256 0
  slices_S784x256_o768_0_S16x256 : S784x256.Slices ![768, 0] S16x256
  shapeCasts_S16x256_S8x2x256 : S16x256.ShapeCasts S8x2x256
  reduces_S8x2x256_S8x256 : S8x2x256.Reduces [1] S8x256
  slices_S784x256_o0_0_S768x256 : S784x256.Slices ![0, 0] S768x256
  concatenates_S768x256_S8x256_S776x256_d0 : Shape.Concatenates [S768x256, S8x256] S776x256 0
  slices_S16x256_o8_0_S8x256 : S16x256.Slices ![8, 0] S8x256
  concatenates_S8x256_S8x256_S16x256_d0 : Shape.Concatenates [S8x256, S8x256] S16x256 0
  slices_S776x256_o768_0_S8x256 : S776x256.Slices ![768, 0] S8x256
  shapeCasts_S8x256_S4x2x256 : S8x256.ShapeCasts S4x2x256
  reduces_S4x2x256_S4x256 : S4x2x256.Reduces [1] S4x256
  slices_S776x256_o0_0_S768x256 : S776x256.Slices ![0, 0] S768x256
  concatenates_S768x256_S4x256_S772x256_d0 : Shape.Concatenates [S768x256, S4x256] S772x256 0
  slices_S8x256_o4_0_S4x256 : S8x256.Slices ![4, 0] S4x256
  concatenates_S4x256_S4x256_S8x256_d0 : Shape.Concatenates [S4x256, S4x256] S8x256 0
  slices_S772x256_o768_0_S4x256 : S772x256.Slices ![768, 0] S4x256
  shapeCasts_S4x256_S2x2x256 : S4x256.ShapeCasts S2x2x256
  reduces_S2x2x256_S2x256 : S2x2x256.Reduces [1] S2x256
  slices_S772x256_o0_0_S768x256 : S772x256.Slices ![0, 0] S768x256
  concatenates_S768x256_S2x256_S770x256_d0 : Shape.Concatenates [S768x256, S2x256] S770x256 0
  slices_S4x256_o2_0_S2x256 : S4x256.Slices ![2, 0] S2x256
  concatenates_S2x256_S2x256_S4x256_d0 : Shape.Concatenates [S2x256, S2x256] S4x256 0
  slices_S770x256_o768_0_S2x256 : S770x256.Slices ![768, 0] S2x256
  shapeCasts_S2x256_S1x2x256 : S2x256.ShapeCasts S1x2x256
  reduces_S1x2x256_S1x256 : S1x2x256.Reduces [1] S1x256
  slices_S2x256_o1_0_S1x256 : S2x256.Slices ![1, 0] S1x256
  concatenates_S1x256_S1x256_S2x256_d0 : Shape.Concatenates [S1x256, S1x256] S2x256 0
  concatenates_S2x256_S4x256_S8x256_S16x256_S32x256_S64x256_S128x256_S256x256_S2048x256_S2558x256_d0 : Shape.Concatenates [S2x256, S4x256, S8x256, S16x256, S32x256, S64x256, S128x256, S256x256, S2048x256] S2558x256 0
  shapeCasts_S2558x256_S1x2558x256 : S2558x256.ShapeCasts S1x2558x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2558x256.size a ≤ S8x2558x2048.size a
  hwx0_0 : ∀ i : grid0.Coords, EltTy.bits .f32 = 32 ∨ (Rect.block (s := S8x2558x2048) S1x2558x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S8x1024x2048.size a
  hwx0_1 : ∀ i : grid0.Coords, EltTy.bits .f32 = 32 ∨ (Rect.block (s := S8x1024x2048) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2558x256.size a ≤ S8x2558x2048.size a
  hwx0_2 : ∀ i : grid0.Coords, EltTy.bits .f32 = 32 ∨ (Rect.block (s := S8x2558x2048) S1x2558x256.size (cc0_transform_2 i) (hinb0_2 i)).WholeWords (EltTy.packing .f32)

variable [Facts₀]

abbrev win0_0 : Pipeline.Window sig grid0 :=
  Pipeline.Window.ofSpec (Memref.whole main_arg1) S1x2558x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2558x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1024x2048 : Shape := ⟨3, ![8, 1024, 2048]⟩
abbrev S8x2558x2048 : Shape := ⟨3, ![8, 2558, 2048]⟩
abbrev S8x3582x2048 : Shape := ⟨3, ![8, 3582, 2048]⟩
abbrev S8x2048x2048 : Shape := ⟨3, ![8, 2048, 2048]⟩
abbrev S8x512x2048 : Shape := ⟨3, ![8, 512, 2048]⟩
abbrev S8x512x2x2048 : Shape := ⟨4, ![8, 512, 2, 2048]⟩
abbrev S_ : Shape := ⟨0, ![]⟩
abbrev S8x256x2048 : Shape := ⟨3, ![8, 256, 2048]⟩
abbrev S8x128x2x2048 : Shape := ⟨4, ![8, 128, 2, 2048]⟩
abbrev S8x128x2048 : Shape := ⟨3, ![8, 128, 2048]⟩
abbrev S8x768x2048 : Shape := ⟨3, ![8, 768, 2048]⟩
abbrev S8x896x2048 : Shape := ⟨3, ![8, 896, 2048]⟩
abbrev S8x64x2x2048 : Shape := ⟨4, ![8, 64, 2, 2048]⟩
abbrev S8x64x2048 : Shape := ⟨3, ![8, 64, 2048]⟩
abbrev S8x832x2048 : Shape := ⟨3, ![8, 832, 2048]⟩
abbrev S8x32x2x2048 : Shape := ⟨4, ![8, 32, 2, 2048]⟩
abbrev S8x32x2048 : Shape := ⟨3, ![8, 32, 2048]⟩
abbrev S8x800x2048 : Shape := ⟨3, ![8, 800, 2048]⟩
abbrev S8x16x2x2048 : Shape := ⟨4, ![8, 16, 2, 2048]⟩
abbrev S8x16x2048 : Shape := ⟨3, ![8, 16, 2048]⟩
abbrev S8x784x2048 : Shape := ⟨3, ![8, 784, 2048]⟩
abbrev S8x8x2x2048 : Shape := ⟨4, ![8, 8, 2, 2048]⟩
abbrev S8x8x2048 : Shape := ⟨3, ![8, 8, 2048]⟩
abbrev S8x776x2048 : Shape := ⟨3, ![8, 776, 2048]⟩
abbrev S8x4x2x2048 : Shape := ⟨4, ![8, 4, 2, 2048]⟩
abbrev S8x4x2048 : Shape := ⟨3, ![8, 4, 2048]⟩
abbrev S8x772x2048 : Shape := ⟨3, ![8, 772, 2048]⟩
abbrev S8x2x2x2048 : Shape := ⟨4, ![8, 2, 2, 2048]⟩
abbrev S8x2x2048 : Shape := ⟨3, ![8, 2, 2048]⟩
abbrev S8x770x2048 : Shape := ⟨3, ![8, 770, 2048]⟩
abbrev S8x1x2x2048 : Shape := ⟨4, ![8, 1, 2, 2048]⟩
abbrev S8x1x2048 : Shape := ⟨3, ![8, 1, 2048]⟩
abbrev S8x769x2048 : Shape := ⟨3, ![8, 769, 2048]⟩

abbrev nBuf : Space → Nat
  | .hbm => 102
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x2558x2048, .f32⟩
  | .hbm, ⟨2, _⟩ => ⟨S8x3582x2048, .f32⟩
  | .hbm, ⟨3, _⟩ => ⟨S8x2048x2048, .f32⟩
  | .hbm, ⟨4, _⟩ => ⟨S8x512x2048, .f32⟩
  | .hbm, ⟨5, _⟩ => ⟨S8x1024x2048, .f32⟩
  | .hbm, ⟨6, _⟩ => ⟨S8x512x2x2048, .f32⟩
  | .hbm, ⟨7, _⟩ => ⟨S_, .f32⟩
  | .hbm, ⟨8, _⟩ => ⟨S8x512x2048, .f32⟩
  | .hbm, ⟨9, _⟩ => ⟨S_, .f32⟩
  | .hbm, ⟨10, _⟩ => ⟨S8x512x2048, .f32⟩
  | .hbm, ⟨11, _⟩ => ⟨S8x512x2048, .f32⟩
  | .hbm, ⟨12, _⟩ => ⟨S8x1024x2048, .f32⟩
  | .hbm, ⟨13, _⟩ => ⟨S8x256x2048, .f32⟩
  | .hbm, ⟨14, _⟩ => ⟨S8x128x2x2048, .f32⟩
  | .hbm, ⟨15, _⟩ => ⟨S_, .f32⟩
  | .hbm, ⟨16, _⟩ => ⟨S8x128x2048, .f32⟩
  | .hbm, ⟨17, _⟩ => ⟨S_, .f32⟩
  | .hbm, ⟨18, _⟩ => ⟨S8x128x2048, .f32⟩
  | .hbm, ⟨19, _⟩ => ⟨S8x128x2048, .f32⟩
  | .hbm, ⟨20, _⟩ => ⟨S8x768x2048, .f32⟩
  | .hbm, ⟨21, _⟩ => ⟨S8x896x2048, .f32⟩
  | .hbm, ⟨22, _⟩ => ⟨S8x128x2048, .f32⟩
  | .hbm, ⟨23, _⟩ => ⟨S8x256x2048, .f32⟩
  | .hbm, ⟨24, _⟩ => ⟨S8x128x2048, .f32⟩
  | .hbm, ⟨25, _⟩ => ⟨S8x64x2x2048, .f32⟩
  | .hbm, ⟨26, _⟩ => ⟨S_, .f32⟩
  | .hbm, ⟨27, _⟩ => ⟨S8x64x2048, .f32⟩
  | .hbm, ⟨28, _⟩ => ⟨S_, .f32⟩
  | .hbm, ⟨29, _⟩ => ⟨S8x64x2048, .f32⟩
  | .hbm, ⟨30, _⟩ => ⟨S8x64x2048, .f32⟩
  | .hbm, ⟨31, _⟩ => ⟨S8x768x2048, .f32⟩
  | .hbm, ⟨32, _⟩ => ⟨S8x832x2048, .f32⟩
  | .hbm, ⟨33, _⟩ => ⟨S8x64x2048, .f32⟩
  | .hbm, ⟨34, _⟩ => ⟨S8x128x2048, .f32⟩
  | .hbm, ⟨35, _⟩ => ⟨S8x64x2048, .f32⟩
  | .hbm, ⟨36, _⟩ => ⟨S8x32x2x2048, .f32⟩
  | .hbm, ⟨37, _⟩ => ⟨S_, .f32⟩
  | .hbm, ⟨38, _⟩ => ⟨S8x32x2048, .f32⟩
  | .hbm, ⟨39, _⟩ => ⟨S_, .f32⟩
  | .hbm, ⟨40, _⟩ => ⟨S8x32x2048, .f32⟩
  | .hbm, ⟨41, _⟩ => ⟨S8x32x2048, .f32⟩
  | .hbm, ⟨42, _⟩ => ⟨S8x768x2048, .f32⟩
  | .hbm, ⟨43, _⟩ => ⟨S8x800x2048, .f32⟩
  | .hbm, ⟨44, _⟩ => ⟨S8x32x2048, .f32⟩
  | .hbm, ⟨45, _⟩ => ⟨S8x64x2048, .f32⟩
  | .hbm, ⟨46, _⟩ => ⟨S8x32x2048, .f32⟩
  | .hbm, ⟨47, _⟩ => ⟨S8x16x2x2048, .f32⟩
  | .hbm, ⟨48, _⟩ => ⟨S_, .f32⟩
  | .hbm, ⟨49, _⟩ => ⟨S8x16x2048, .f32⟩
  | .hbm, ⟨50, _⟩ => ⟨S_, .f32⟩
  | .hbm, ⟨51, _⟩ => ⟨S8x16x2048, .f32⟩
  | .hbm, ⟨52, _⟩ => ⟨S8x16x2048, .f32⟩
  | .hbm, ⟨53, _⟩ => ⟨S8x768x2048, .f32⟩
  | .hbm, ⟨54, _⟩ => ⟨S8x784x2048, .f32⟩
  | .hbm, ⟨55, _⟩ => ⟨S8x16x2048, .f32⟩
  | .hbm, ⟨56, _⟩ => ⟨S8x32x2048, .f32⟩
  | .hbm, ⟨57, _⟩ => ⟨S8x16x2048, .f32⟩
  | .hbm, ⟨58, _⟩ => ⟨S8x8x2x2048, .f32⟩
  | .hbm, ⟨59, _⟩ => ⟨S_, .f32⟩
  | .hbm, ⟨60, _⟩ => ⟨S8x8x2048, .f32⟩
  | .hbm, ⟨61, _⟩ => ⟨S_, .f32⟩
  | .hbm, ⟨62, _⟩ => ⟨S8x8x2048, .f32⟩
  | .hbm, ⟨63, _⟩ => ⟨S8x8x2048, .f32⟩
  | .hbm, ⟨64, _⟩ => ⟨S8x768x2048, .f32⟩
  | .hbm, ⟨65, _⟩ => ⟨S8x776x2048, .f32⟩
  | .hbm, ⟨66, _⟩ => ⟨S8x8x2048, .f32⟩
  | .hbm, ⟨67, _⟩ => ⟨S8x16x2048, .f32⟩
  | .hbm, ⟨68, _⟩ => ⟨S8x8x2048, .f32⟩
  | .hbm, ⟨69, _⟩ => ⟨S8x4x2x2048, .f32⟩
  | .hbm, ⟨70, _⟩ => ⟨S_, .f32⟩
  | .hbm, ⟨71, _⟩ => ⟨S8x4x2048, .f32⟩
  | .hbm, ⟨72, _⟩ => ⟨S_, .f32⟩
  | .hbm, ⟨73, _⟩ => ⟨S8x4x2048, .f32⟩
  | .hbm, ⟨74, _⟩ => ⟨S8x4x2048, .f32⟩
  | .hbm, ⟨75, _⟩ => ⟨S8x768x2048, .f32⟩
  | .hbm, ⟨76, _⟩ => ⟨S8x772x2048, .f32⟩
  | .hbm, ⟨77, _⟩ => ⟨S8x4x2048, .f32⟩
  | .hbm, ⟨78, _⟩ => ⟨S8x8x2048, .f32⟩
  | .hbm, ⟨79, _⟩ => ⟨S8x4x2048, .f32⟩
  | .hbm, ⟨80, _⟩ => ⟨S8x2x2x2048, .f32⟩
  | .hbm, ⟨81, _⟩ => ⟨S_, .f32⟩
  | .hbm, ⟨82, _⟩ => ⟨S8x2x2048, .f32⟩
  | .hbm, ⟨83, _⟩ => ⟨S_, .f32⟩
  | .hbm, ⟨84, _⟩ => ⟨S8x2x2048, .f32⟩
  | .hbm, ⟨85, _⟩ => ⟨S8x2x2048, .f32⟩
  | .hbm, ⟨86, _⟩ => ⟨S8x768x2048, .f32⟩
  | .hbm, ⟨87, _⟩ => ⟨S8x770x2048, .f32⟩
  | .hbm, ⟨88, _⟩ => ⟨S8x2x2048, .f32⟩
  | .hbm, ⟨89, _⟩ => ⟨S8x4x2048, .f32⟩
  | .hbm, ⟨90, _⟩ => ⟨S8x2x2048, .f32⟩
  | .hbm, ⟨91, _⟩ => ⟨S8x1x2x2048, .f32⟩
  | .hbm, ⟨92, _⟩ => ⟨S_, .f32⟩
  | .hbm, ⟨93, _⟩ => ⟨S8x1x2048, .f32⟩
  | .hbm, ⟨94, _⟩ => ⟨S_, .f32⟩
  | .hbm, ⟨95, _⟩ => ⟨S8x1x2048, .f32⟩
  | .hbm, ⟨96, _⟩ => ⟨S8x1x2048, .f32⟩
  | .hbm, ⟨97, _⟩ => ⟨S8x768x2048, .f32⟩
  | .hbm, ⟨98, _⟩ => ⟨S8x769x2048, .f32⟩
  | .hbm, ⟨99, _⟩ => ⟨S8x1x2048, .f32⟩
  | .hbm, ⟨100, _⟩ => ⟨S8x2x2048, .f32⟩
  | .hbm, ⟨101, _⟩ => ⟨S8x2558x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_11 : Ref sig .tc := ⟨.hbm, 70, rfl⟩
abbrev main_v56 : Ref sig .tc := ⟨.hbm, 71, rfl⟩
abbrev main_cst_12 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_13 : Ref sig .tc := ⟨.hbm, 81, rfl⟩
abbrev main_v65 : Ref sig .tc := ⟨.hbm, 82, rfl⟩
abbrev main_cst_14 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_15 : Ref sig .tc := ⟨.hbm, 92, rfl⟩
abbrev main_v74 : Ref sig .tc := ⟨.hbm, 93, rfl⟩
abbrev main_cst_16 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]

class Facts₀ : Prop where
  concatenates_S8x2558x2048_S8x1024x2048_S8x3582x2048_d1 : Shape.Concatenates [S8x2558x2048, S8x1024x2048] S8x3582x2048 1
  slices_S8x3582x2048_S8x2048x2048_0_512_0 : S8x3582x2048.Slices ![0, 512, 0] S8x2048x2048
  slices_S8x3582x2048_S8x512x2048_0_0_0 : S8x3582x2048.Slices ![0, 0, 0] S8x512x2048
  slices_S8x2048x2048_S8x1024x2048_0_0_0 : S8x2048x2048.Slices ![0, 0, 0] S8x1024x2048
  shapeCasts_S8x1024x2048_S8x512x2x2048 : S8x1024x2048.ShapeCasts S8x512x2x2048
  reducesTo_S8x512x2x2048_S8x512x2048_d2 : S8x512x2x2048.ReducesTo [2] S8x512x2048
  h_S_ : 0 < S_.numel
  bcast_S_S8x512x2048 : S_.BroadcastsInDim S8x512x2048 (![] : Fin 0 → Fin S8x512x2048.rank)
  concatenates_S8x512x2048_S8x512x2048_S8x1024x2048_d1 : Shape.Concatenates [S8x512x2048, S8x512x2048] S8x1024x2048 1
  slices_S8x1024x2048_S8x256x2048_0_768_0 : S8x1024x2048.Slices ![0, 768, 0] S8x256x2048
  shapeCasts_S8x256x2048_S8x128x2x2048 : S8x256x2048.ShapeCasts S8x128x2x2048
  reducesTo_S8x128x2x2048_S8x128x2048_d2 : S8x128x2x2048.ReducesTo [2] S8x128x2048
  bcast_S_S8x128x2048 : S_.BroadcastsInDim S8x128x2048 (![] : Fin 0 → Fin S8x128x2048.rank)
  slices_S8x1024x2048_S8x768x2048_0_0_0 : S8x1024x2048.Slices ![0, 0, 0] S8x768x2048
  concatenates_S8x768x2048_S8x128x2048_S8x896x2048_d1 : Shape.Concatenates [S8x768x2048, S8x128x2048] S8x896x2048 1
  slices_S8x256x2048_S8x128x2048_0_128_0 : S8x256x2048.Slices ![0, 128, 0] S8x128x2048
  concatenates_S8x128x2048_S8x128x2048_S8x256x2048_d1 : Shape.Concatenates [S8x128x2048, S8x128x2048] S8x256x2048 1
  slices_S8x896x2048_S8x128x2048_0_768_0 : S8x896x2048.Slices ![0, 768, 0] S8x128x2048
  shapeCasts_S8x128x2048_S8x64x2x2048 : S8x128x2048.ShapeCasts S8x64x2x2048
  reducesTo_S8x64x2x2048_S8x64x2048_d2 : S8x64x2x2048.ReducesTo [2] S8x64x2048
  bcast_S_S8x64x2048 : S_.BroadcastsInDim S8x64x2048 (![] : Fin 0 → Fin S8x64x2048.rank)
  slices_S8x896x2048_S8x768x2048_0_0_0 : S8x896x2048.Slices ![0, 0, 0] S8x768x2048
  concatenates_S8x768x2048_S8x64x2048_S8x832x2048_d1 : Shape.Concatenates [S8x768x2048, S8x64x2048] S8x832x2048 1
  slices_S8x128x2048_S8x64x2048_0_64_0 : S8x128x2048.Slices ![0, 64, 0] S8x64x2048
  concatenates_S8x64x2048_S8x64x2048_S8x128x2048_d1 : Shape.Concatenates [S8x64x2048, S8x64x2048] S8x128x2048 1
  slices_S8x832x2048_S8x64x2048_0_768_0 : S8x832x2048.Slices ![0, 768, 0] S8x64x2048
  shapeCasts_S8x64x2048_S8x32x2x2048 : S8x64x2048.ShapeCasts S8x32x2x2048
  reducesTo_S8x32x2x2048_S8x32x2048_d2 : S8x32x2x2048.ReducesTo [2] S8x32x2048
  bcast_S_S8x32x2048 : S_.BroadcastsInDim S8x32x2048 (![] : Fin 0 → Fin S8x32x2048.rank)
  slices_S8x832x2048_S8x768x2048_0_0_0 : S8x832x2048.Slices ![0, 0, 0] S8x768x2048
  concatenates_S8x768x2048_S8x32x2048_S8x800x2048_d1 : Shape.Concatenates [S8x768x2048, S8x32x2048] S8x800x2048 1
  slices_S8x64x2048_S8x32x2048_0_32_0 : S8x64x2048.Slices ![0, 32, 0] S8x32x2048
  concatenates_S8x32x2048_S8x32x2048_S8x64x2048_d1 : Shape.Concatenates [S8x32x2048, S8x32x2048] S8x64x2048 1
  slices_S8x800x2048_S8x32x2048_0_768_0 : S8x800x2048.Slices ![0, 768, 0] S8x32x2048
  shapeCasts_S8x32x2048_S8x16x2x2048 : S8x32x2048.ShapeCasts S8x16x2x2048
  reducesTo_S8x16x2x2048_S8x16x2048_d2 : S8x16x2x2048.ReducesTo [2] S8x16x2048
  bcast_S_S8x16x2048 : S_.BroadcastsInDim S8x16x2048 (![] : Fin 0 → Fin S8x16x2048.rank)
  slices_S8x800x2048_S8x768x2048_0_0_0 : S8x800x2048.Slices ![0, 0, 0] S8x768x2048
  concatenates_S8x768x2048_S8x16x2048_S8x784x2048_d1 : Shape.Concatenates [S8x768x2048, S8x16x2048] S8x784x2048 1
  slices_S8x32x2048_S8x16x2048_0_16_0 : S8x32x2048.Slices ![0, 16, 0] S8x16x2048
  concatenates_S8x16x2048_S8x16x2048_S8x32x2048_d1 : Shape.Concatenates [S8x16x2048, S8x16x2048] S8x32x2048 1
  slices_S8x784x2048_S8x16x2048_0_768_0 : S8x784x2048.Slices ![0, 768, 0] S8x16x2048
  shapeCasts_S8x16x2048_S8x8x2x2048 : S8x16x2048.ShapeCasts S8x8x2x2048
  reducesTo_S8x8x2x2048_S8x8x2048_d2 : S8x8x2x2048.ReducesTo [2] S8x8x2048
  bcast_S_S8x8x2048 : S_.BroadcastsInDim S8x8x2048 (![] : Fin 0 → Fin S8x8x2048.rank)
  slices_S8x784x2048_S8x768x2048_0_0_0 : S8x784x2048.Slices ![0, 0, 0] S8x768x2048
  concatenates_S8x768x2048_S8x8x2048_S8x776x2048_d1 : Shape.Concatenates [S8x768x2048, S8x8x2048] S8x776x2048 1
  slices_S8x16x2048_S8x8x2048_0_8_0 : S8x16x2048.Slices ![0, 8, 0] S8x8x2048
  concatenates_S8x8x2048_S8x8x2048_S8x16x2048_d1 : Shape.Concatenates [S8x8x2048, S8x8x2048] S8x16x2048 1
  slices_S8x776x2048_S8x8x2048_0_768_0 : S8x776x2048.Slices ![0, 768, 0] S8x8x2048
  shapeCasts_S8x8x2048_S8x4x2x2048 : S8x8x2048.ShapeCasts S8x4x2x2048
  reducesTo_S8x4x2x2048_S8x4x2048_d2 : S8x4x2x2048.ReducesTo [2] S8x4x2048
  bcast_S_S8x4x2048 : S_.BroadcastsInDim S8x4x2048 (![] : Fin 0 → Fin S8x4x2048.rank)
  slices_S8x776x2048_S8x768x2048_0_0_0 : S8x776x2048.Slices ![0, 0, 0] S8x768x2048
  concatenates_S8x768x2048_S8x4x2048_S8x772x2048_d1 : Shape.Concatenates [S8x768x2048, S8x4x2048] S8x772x2048 1
  slices_S8x8x2048_S8x4x2048_0_4_0 : S8x8x2048.Slices ![0, 4, 0] S8x4x2048
  concatenates_S8x4x2048_S8x4x2048_S8x8x2048_d1 : Shape.Concatenates [S8x4x2048, S8x4x2048] S8x8x2048 1
  slices_S8x772x2048_S8x4x2048_0_768_0 : S8x772x2048.Slices ![0, 768, 0] S8x4x2048
  shapeCasts_S8x4x2048_S8x2x2x2048 : S8x4x2048.ShapeCasts S8x2x2x2048
  reducesTo_S8x2x2x2048_S8x2x2048_d2 : S8x2x2x2048.ReducesTo [2] S8x2x2048
  bcast_S_S8x2x2048 : S_.BroadcastsInDim S8x2x2048 (![] : Fin 0 → Fin S8x2x2048.rank)
  slices_S8x772x2048_S8x768x2048_0_0_0 : S8x772x2048.Slices ![0, 0, 0] S8x768x2048
  concatenates_S8x768x2048_S8x2x2048_S8x770x2048_d1 : Shape.Concatenates [S8x768x2048, S8x2x2048] S8x770x2048 1
  slices_S8x4x2048_S8x2x2048_0_2_0 : S8x4x2048.Slices ![0, 2, 0] S8x2x2048
  concatenates_S8x2x2048_S8x2x2048_S8x4x2048_d1 : Shape.Concatenates [S8x2x2048, S8x2x2048] S8x4x2048 1
  slices_S8x770x2048_S8x2x2048_0_768_0 : S8x770x2048.Slices ![0, 768, 0] S8x2x2048
  shapeCasts_S8x2x2048_S8x1x2x2048 : S8x2x2048.ShapeCasts S8x1x2x2048
  reducesTo_S8x1x2x2048_S8x1x2048_d2 : S8x1x2x2048.ReducesTo [2] S8x1x2048
  bcast_S_S8x1x2048 : S_.BroadcastsInDim S8x1x2048 (![] : Fin 0 → Fin S8x1x2048.rank)
  slices_S8x770x2048_S8x768x2048_0_0_0 : S8x770x2048.Slices ![0, 0, 0] S8x768x2048
  concatenates_S8x768x2048_S8x1x2048_S8x769x2048_d1 : Shape.Concatenates [S8x768x2048, S8x1x2048] S8x769x2048 1
  slices_S8x2x2048_S8x1x2048_0_1_0 : S8x2x2048.Slices ![0, 1, 0] S8x1x2048
  concatenates_S8x1x2048_S8x1x2048_S8x2x2048_d1 : Shape.Concatenates [S8x1x2048, S8x1x2048] S8x2x2048 1
  concatenates_S8x2x2048_S8x4x2048_S8x8x2048_S8x16x2048_S8x32x2048_S8x64x2048_S8x128x2048_S8x256x2048_S8x2048x2048_S8x2558x2048_d1 : Shape.Concatenates [S8x2x2048, S8x4x2048, S8x8x2048, S8x16x2048, S8x32x2048, S8x64x2048, S8x128x2048, S8x256x2048, S8x2048x2048] S8x2558x2048 1

variable [Facts₀]

class Facts : Prop extends Facts₀ where

variable [Facts]
-- ==== Proof.LibSsa.lean ====
/-
  Reading a straight line of StableHLO operations in single-assignment order.

  A line `ops` whose operations each write one reference, listed in order by `wl` (hypothesis `hW`), is in
  single-assignment order at position `k` when the reference written there is written by no later operation and
  the references read there are written by no operation from `k` on. Then the FINAL valuation `after ops V`
  satisfies that operation's own equation: the result's final contents are the operation's function of the
  operands' final contents. One lemma per builder (`ssa_nullary`, `ssa_unary`, `ssa_binary`, `ssa_ternary`,
  `ssa_nary`), and `ssa_keep` for a reference the line never writes. At a literal line the position fact closes
  by `rfl` and the membership facts by `decide`.
-/
import Idealize.ShloMosaic.Lib.StableHlo.Run

namespace Idealize.ShloMosaic.StableHlo.Ssa

variable {τ : Topo} {sig : RefSig} {Val : EltTy → Type}

/-- The fold of a line cut in two: the second part run from what the first part leaves. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- The fold cut at position `k`. -/
theorem after_split (ops : List (HloOp τ sig Val)) (V : Valuation τ sig Val) (k : Nat) :
    after ops V = after (ops.drop k) (after (ops.take k) V) := by
  conv_lhs => rw [← List.take_append_drop k ops]
  exact after_app _ _ V

/-- The fold opened at the operation standing at position `k`: the operations before it, then it, then the rest. -/
theorem after_at (ops : List (HloOp τ sig Val)) (V : Valuation τ sig Val) (k : Nat) (op : HloOp τ sig Val)
    (hk : ops[k]? = some op) :
    after ops V = after (ops.drop (k + 1)) (op.result (after (ops.take k) V)) := by
  obtain ⟨h, rfl⟩ := List.getElem?_eq_some_iff.mp hk
  rw [after_split ops V k, List.drop_eq_getElem_cons h, after_cons]

section Table

variable {ops : List (HloOp τ sig Val)} {wl : List (Ref sig .tc)}

/-- The table of written references, restricted to the operations from position `j` on. -/
theorem writes_drop
    (hW : ops.map (·.writes) = wl.map fun r => ({Proc.devRef .tc r} : Finset (DevRef τ sig))) (j : Nat) :
    (ops.drop j).map (·.writes) = (wl.drop j).map fun r => ({Proc.devRef .tc r} : Finset (DevRef τ sig)) := by
  rw [List.map_drop, hW, ← List.map_drop]

/-- A reference not listed from position `j` on is written by no operation from position `j` on. -/
theorem not_mem_writes
    (hW : ops.map (·.writes) = wl.map fun r => ({Proc.devRef .tc r} : Finset (DevRef τ sig)))
    {j : Nat} {r : Ref sig .tc} (hr : r ∉ wl.drop j) :
    ∀ op ∈ ops.drop j, (Proc.devRef .tc r : DevRef τ sig) ∉ op.writes := by
  intro op hop hmem
  have h1 : op.writes ∈ (ops.drop j).map (·.writes) := List.mem_map.mpr ⟨op, hop, rfl⟩
  rw [writes_drop hW j] at h1
  obtain ⟨y, hy, he⟩ := List.mem_map.mp h1
  rw [← he, Finset.mem_singleton] at hmem
  exact hr (Proc.devRef_injective _ hmem ▸ hy)

/-- A reference not listed from position `j` on keeps its contents through the operations from position `j` on. -/
theorem after_drop_keep
    (hW : ops.map (·.writes) = wl.map fun r => ({Proc.devRef .tc r} : Finset (DevRef τ sig)))
    (V : Valuation τ sig Val) {j : Nat} {r : Ref sig .tc} (hr : r ∉ wl.drop j) :
    after (ops.drop j) V (Proc.devRef .tc r) = V (Proc.devRef .tc r) :=
  after_of_forall_not_mem _ V (not_mem_writes hW hr)

/-- A reference the line never writes holds at the end what it held at the start. -/
theorem ssa_keep
    (hW : ops.map (·.writes) = wl.map fun r => ({Proc.devRef .tc r} : Finset (DevRef τ sig)))
    (V : Valuation τ sig Val) (r : Ref sig .tc) (hr : r ∉ wl) :
    after ops V (Proc.devRef .tc r) = V (Proc.devRef .tc r) := by
  have h := after_drop_keep hW V (j := 0) (r := r) (by rwa [List.drop_zero])
  rwa [List.drop_zero] at h

/-- A reference not written from position `k` on holds at the end what it held before the operation at `k`. -/
theorem ssa_read
    (hW : ops.map (·.writes) = wl.map fun r => ({Proc.devRef .tc r} : Finset (DevRef τ sig)))
    (V : Valuation τ sig Val) (k : Nat) {r : Ref sig .tc} (hr : r ∉ wl.drop k) :
    after ops V (Proc.devRef .tc r) = after (ops.take k) V (Proc.devRef .tc r) := by
  rw [after_split ops V k]
  exact after_drop_keep hW _ hr

/-- The final contents of the reference the operation at position `k` writes, when no later operation writes it:
    what that operation left there. -/
theorem ssa_result
    (hW : ops.map (·.writes) = wl.map fun r => ({Proc.devRef .tc r} : Finset (DevRef τ sig)))
    (V : Valuation τ sig Val) (k : Nat) (op : HloOp τ sig Val) (hk : ops[k]? = some op)
    {y : Ref sig .tc} (hy' : y ∉ wl.drop (k + 1)) :
    after ops V (Proc.devRef .tc y) = op.result (after (ops.take k) V) (Proc.devRef .tc y) := by
  rw [after_at ops V k op hk]
  exact after_drop_keep hW _ hy'

/-- A `nullary` operation at position `k` whose result no later operation writes: the result ends at its value. -/
theorem ssa_nullary
    (hW : ops.map (·.writes) = wl.map fun r => ({Proc.devRef .tc r} : Finset (DevRef τ sig)))
    (V : Valuation τ sig Val) (k : Nat) (y : Ref sig .tc) (v : y.ty.Contents Val) (hy)
    (hk : ops[k]? = some (nullary y v hy)) (hy' : y ∉ wl.drop (k + 1)) :
    after ops V (Proc.devRef .tc y) = v :=
  (ssa_result hW V k _ hk hy').trans (nullary_result y v hy _)

/-- A `unary` operation at position `k`, its result written by no later operation and its operand by none from
    `k` on: the result ends at the function of the operand's final contents. -/
theorem ssa_unary
    (hW : ops.map (·.writes) = wl.map fun r => ({Proc.devRef .tc r} : Finset (DevRef τ sig)))
    (V : Valuation τ sig Val) (k : Nat) (x y : Ref sig .tc) (f : x.ty.Contents Val → y.ty.Contents Val) (hx hy)
    (hk : ops[k]? = some (unary x y f hx hy)) (hy' : y ∉ wl.drop (k + 1)) (hx' : x ∉ wl.drop k) :
    after ops V (Proc.devRef .tc y) = f (after ops V (Proc.devRef .tc x)) :=
  ((ssa_result hW V k _ hk hy').trans (unary_result x y f hx hy _)).trans
    (congrArg f (ssa_read hW V k hx').symm)

/-- A `binary` operation at position `k`, its result written by no later operation and its operands by none from
    `k` on: the result ends at the function of the operands' final contents. -/
theorem ssa_binary
    (hW : ops.map (·.writes) = wl.map fun r => ({Proc.devRef .tc r} : Finset (DevRef τ sig)))
    (V : Valuation τ sig Val) (k : Nat) (a b y : Ref sig .tc)
    (f : a.ty.Contents Val → b.ty.Contents Val → y.ty.Contents Val) (ha hb hy)
    (hk : ops[k]? = some (binary a b y f ha hb hy))
    (hy' : y ∉ wl.drop (k + 1)) (ha' : a ∉ wl.drop k) (hb' : b ∉ wl.drop k) :
    after ops V (Proc.devRef .tc y) = f (after ops V (Proc.devRef .tc a)) (after ops V (Proc.devRef .tc b)) :=
  ((ssa_result hW V k _ hk hy').trans (binary_result a b y f ha hb hy _)).trans
    (congrArg₂ f (ssa_read hW V k ha').symm (ssa_read hW V k hb').symm)

/-- A `ternary` operation at position `k`, its result written by no later operation and its operands by none from
    `k` on: the result ends at the function of the operands' final contents. -/
theorem ssa_ternary
    (hW : ops.map (·.writes) = wl.map fun r => ({Proc.devRef .tc r} : Finset (DevRef τ sig)))
    (V : Valuation τ sig Val) (k : Nat) (c a b y : Ref sig .tc)
    (f : c.ty.Contents Val → a.ty.Contents Val → b.ty.Contents Val → y.ty.Contents Val) (hc ha hb hy)
    (hk : ops[k]? = some (ternary c a b y f hc ha hb hy))
    (hy' : y ∉ wl.drop (k + 1)) (hc' : c ∉ wl.drop k) (ha' : a ∉ wl.drop k) (hb' : b ∉ wl.drop k) :
    after ops V (Proc.devRef .tc y)
      = f (after ops V (Proc.devRef .tc c)) (after ops V (Proc.devRef .tc a)) (after ops V (Proc.devRef .tc b)) := by
  refine ((ssa_result hW V k _ hk hy').trans (ternary_result c a b y f hc ha hb hy _)).trans ?_
  rw [← ssa_read hW V k hc']
  exact congrArg₂ _ (ssa_read hW V k ha').symm (ssa_read hW V k hb').symm

/-- An `nary` operation at position `k`, its result written by no later operation and none of its operands by any
    from `k` on: the result ends at the function of the family of the operands' final contents. -/
theorem ssa_nary
    (hW : ops.map (·.writes) = wl.map fun r => ({Proc.devRef .tc r} : Finset (DevRef τ sig)))
    (V : Valuation τ sig Val) (k : Nat) {n : Nat} (xs : Fin n → Ref sig .tc) (y : Ref sig .tc)
    (f : ((i : Fin n) → (xs i).ty.Contents Val) → y.ty.Contents Val) (hxs hy)
    (hk : ops[k]? = some (nary xs y f hxs hy))
    (hy' : y ∉ wl.drop (k + 1)) (hxs' : ∀ i, xs i ∉ wl.drop k) :
    after ops V (Proc.devRef .tc y) = f (fun i => after ops V (Proc.devRef .tc (xs i))) :=
  ((ssa_result hW V k _ hk hy').trans (nary_result xs y f hxs hy _)).trans
    (congrArg f (funext fun i => (ssa_read hW V k (hxs' i)).symm))

end Table

end Idealize.ShloMosaic.StableHlo.Ssa
-- ==== Proof.LibSsaReshape.lean ====
/-
  Reading a `reshape` operation of a straight line of StableHLO operations in single-assignment order: the companion of
  the per-builder lemmas of Proof/LibSsa.lean for the `reshape` builder. When the reshaped reference is written by no
  later operation and its operand by none from its position on, the result's final contents are the operand's final
  contents re-indexed in row-major order.
-/
import proofs.«175203_j10634339025369_1_alg».proof.Proof.LibSsa

namespace Idealize.ShloMosaic.StableHlo.Ssa

variable {τ : Topo} {sig : RefSig} {Val : EltTy → Type}
variable {ops : List (HloOp τ sig Val)} {wl : List (Ref sig .tc)}

/-- A `reshape` operation at position `k`, its result written by no later operation and its operand by none from `k`
    on: the result ends at the shape cast of the operand's final contents. -/
theorem ssa_reshape
    (hW : ops.map (·.writes) = wl.map fun r => ({Proc.devRef .tc r} : Finset (DevRef τ sig)))
    (V : Valuation τ sig Val) (k : Nat) (x y : Ref sig .tc) (he : x.ty.elt = y.ty.elt)
    (hn : x.ty.shape.ShapeCasts y.ty.shape) (hx hy)
    (hk : ops[k]? = some (reshape x y he hn hx hy)) (hy' : y ∉ wl.drop (k + 1)) (hx' : x ∉ wl.drop k) :
    after ops V (Proc.devRef .tc y) = fun i => he ▸ shapeCast y.ty.shape (after ops V (Proc.devRef .tc x)) hn i := by
  refine ((ssa_result hW V k _ hk hy').trans (reshape_result x y he hn hx hy _)).trans ?_
  rw [ssa_read hW V k hx']

end Idealize.ShloMosaic.StableHlo.Ssa
-- ==== Proof.LibTile.lean ====
/-
  Column tiles of a batched array, and the row-axis layout operations that commute with taking one.

  An array of shape [8, R, 2048] is cut, for a batch entry `b` and a column group `d`, into the [R, 256] tile of the
  columns `256·d … 256·d + 255` of batch entry `b`. Slicing rows, concatenating along the row axis and averaging
  adjacent pairs of rows all act on the row coordinate alone, so each of them applied to the whole array and then
  cut to a tile is the same operation applied to the tile.
-/
import Idealize.ShloMosaic.Lib.ValueIdx
import Idealize.ShloMosaic.Lib.Pipeline.Value
import Idealize.ShloMosaic.PureOps.Ideal.Laws

noncomputable section

namespace Cert.LibTile

open Idealize.ShloMosaic Idealize.ShloMosaic.ValueIdx

variable {α : Type}

/-- Column `q` of column group `d`: the array's column `256·d + q`. -/
def col (d : Fin 8) (q : Fin 256) : Fin 2048 := ⟨256 * d.val + q.val, by have := d.isLt; have := q.isLt; omega⟩

theorem col_val (d : Fin 8) (q : Fin 256) : (col d q).val = 256 * d.val + q.val := rfl

/-- The [R, 256] tile of batch entry `b`, column group `d`, of an [8, R, 2048] array. -/
def tile {R : ℕ} (b d : Fin 8) (x : (⟨3, ![8, R, 2048]⟩ : Shape).Idx → α) : (⟨2, ![R, 256]⟩ : Shape).Idx → α :=
  fun j => x (ix3 (n0 := 8) (n1 := R) (n2 := 2048) b (j 0) (col d (j 1)))

theorem tile_apply {R : ℕ} (b d : Fin 8) (x : (⟨3, ![8, R, 2048]⟩ : Shape).Idx → α) (r : Fin R) (q : Fin 256) :
    tile b d x (ix2 r q) = x (ix3 b r (col d q)) := rfl

/-- Rows `o … o + R' - 1` of a tile are the tile of those rows of the array. -/
theorem tile_slice {R R' o : ℕ} (b d : Fin 8) (x : (⟨3, ![8, R, 2048]⟩ : Shape).Idx → α)
    (h : (⟨3, ![8, R, 2048]⟩ : Shape).Slices ![0, o, 0] ⟨3, ![8, R', 2048]⟩)
    (h' : (⟨2, ![R, 256]⟩ : Shape).Slices ![o, 0] ⟨2, ![R', 256]⟩) :
    tile b d (extractStridedSlice ⟨3, ![8, R', 2048]⟩ ![0, o, 0] x h)
      = extractStridedSlice ⟨2, ![R', 256]⟩ ![o, 0] (tile b d x) h' := by
  funext j
  obtain ⟨r, q, rfl⟩ : ∃ (r : Fin R') (q : Fin 256), j = ix2 r q := ⟨j 0, j 1, eq_ix2 j⟩
  have hr : o + r.val < R := by
    have := h'.2 (0 : Fin 2); have hlt := r.isLt
    simp at this; omega
  rw [tile_apply]
  rw [extractStridedSlice_apply ![0, o, 0] x h (ix3 b r (col d q)) (ix3 b ⟨o + r.val, hr⟩ (col d q))
    (fun a => by match a with | ⟨0, _⟩ => simp | ⟨1, _⟩ => rfl | ⟨2, _⟩ => simp)]
  rw [extractStridedSlice_apply ![o, 0] (tile b d x) h' (ix2 r q) (ix2 ⟨o + r.val, hr⟩ q)
    (fun a => by match a with | ⟨0, _⟩ => rfl | ⟨1, _⟩ => simp)]
  rfl

/-- Two arrays laid end to end along the row axis, cut to a tile, are the two tiles laid end to end. -/
theorem tile_concat {R1 R2 R : ℕ} (b d : Fin 8) (x : (⟨3, ![8, R1, 2048]⟩ : Shape).Idx → α)
    (y : (⟨3, ![8, R2, 2048]⟩ : Shape).Idx → α)
    (h : Shape.Concatenates [⟨3, ![8, R1, 2048]⟩, ⟨3, ![8, R2, 2048]⟩] ⟨3, ![8, R, 2048]⟩ 1)
    (h' : Shape.Concatenates [⟨2, ![R1, 256]⟩, ⟨2, ![R2, 256]⟩] ⟨2, ![R, 256]⟩ 0) :
    tile b d (concatenate ⟨3, ![8, R, 2048]⟩ 1 [⟨⟨3, ![8, R1, 2048]⟩, x⟩, ⟨⟨3, ![8, R2, 2048]⟩, y⟩] h)
      = concatenate ⟨2, ![R, 256]⟩ 0 [⟨⟨2, ![R1, 256]⟩, tile b d x⟩, ⟨⟨2, ![R2, 256]⟩, tile b d y⟩] h' := by
  funext j
  obtain ⟨r, q, rfl⟩ : ∃ (r : Fin R) (q : Fin 256), j = ix2 r q := ⟨j 0, j 1, eq_ix2 j⟩
  have hR : R1 + R2 = R := by have := h'.2.2; simpa using this
  rw [tile_apply]
  by_cases hlt : r.val < R1
  · rw [concatenate_pair_apply_left 1 x y h (ix3 b r (col d q)) rfl (ix3 b ⟨r.val, hlt⟩ (col d q))
      (fun a => by match a with | ⟨0, _⟩ => rfl | ⟨1, _⟩ => rfl | ⟨2, _⟩ => rfl)]
    rw [concatenate_pair_apply_left 0 (tile b d x) (tile b d y) h' (ix2 r q) rfl (ix2 ⟨r.val, hlt⟩ q)
      (fun a => by match a with | ⟨0, _⟩ => rfl | ⟨1, _⟩ => rfl)]
    rfl
  · have hge : R1 ≤ r.val := Nat.not_lt.1 hlt
    have hsub : r.val - R1 < R2 := by have := r.isLt; omega
    rw [concatenate_pair_apply_right 1 x y h (ix3 b r (col d q)) rfl rfl (ix3 b ⟨r.val - R1, hsub⟩ (col d q))
      (fun a ha => by match a with | ⟨0, _⟩ => rfl | ⟨1, _⟩ => exact absurd rfl ha | ⟨2, _⟩ => rfl)
      (by show r.val - R1 + R1 = r.val; omega)]
    rw [concatenate_pair_apply_right 0 (tile b d x) (tile b d y) h' (ix2 r q) rfl rfl (ix2 ⟨r.val - R1, hsub⟩ q)
      (fun a ha => by match a with | ⟨0, _⟩ => exact absurd rfl ha | ⟨1, _⟩ => rfl)
      (by show r.val - R1 + R1 = r.val; omega)]
    rfl

/-- The mean of adjacent row pairs. On the whole array it is written as a sum over the middle axis of the
    [8, R, 2, 2048] view started from the zero word and divided by the word of 2; on a tile as the sum over the middle axis
    of the [R, 2, 256] view divided by the same word. Both read rows `2r` and `2r + 1` of the same column, and the
    leading zero of the first sum is absorbed (`0 + s = s` holds on the whole extended line). -/
theorem tile_pool {R R2 : ℕ} (b d : Fin 8) (x : FVec Ideal ⟨3, ![8, R2, 2048]⟩ .f32)
    (h1 : (⟨3, ![8, R2, 2048]⟩ : Shape).ShapeCasts ⟨4, ![8, R, 2, 2048]⟩)
    (h2 : (⟨4, ![8, R, 2, 2048]⟩ : Shape).ReducesTo [2] ⟨3, ![8, R, 2048]⟩)
    (h3 : 0 < (⟨0, ![]⟩ : Shape).numel)
    (h4 : (⟨0, ![]⟩ : Shape).BroadcastsInDim ⟨3, ![8, R, 2048]⟩ ![])
    (g1 : (⟨2, ![R2, 256]⟩ : Shape).ShapeCasts ⟨3, ![R, 2, 256]⟩)
    (g2 : (⟨3, ![R, 2, 256]⟩ : Shape).Reduces [1] ⟨2, ![R, 256]⟩)
    (g3 : FKind.Formats .f32) (g4 : (0x00000000#32 : BitVec 32) = FKind.add.neutral .f32 g3) :
    tile b d (Host.divf (Host.reduceAdd (shapeCast ⟨4, ![8, R, 2, 2048]⟩ x h1) (constant ⟨0, ![]⟩ .f32 0x00000000#32) h2 h3)
        (broadcastInDim ⟨3, ![8, R, 2048]⟩ ![] h4 (constant ⟨0, ![]⟩ .f32 0x40000000#32)))
      = divf (multiReduction .add [1] ⟨2, ![R, 256]⟩ (shapeCast ⟨3, ![R, 2, 256]⟩ (tile b d x) g1) 0x00000000#32 g2 g3 g4)
          (broadcast ⟨2, ![R, 256]⟩ (Scalar.ofBits .f32 0x40000000#32)) := by
  funext j
  obtain ⟨r, q, rfl⟩ : ∃ (r : Fin R) (q : Fin 256), j = ix2 r q := ⟨j 0, j 1, eq_ix2 j⟩
  have h2r : (⟨4, ![8, R, 2, 2048]⟩ : Shape).Reduces [2] ⟨3, ![8, R, 2048]⟩ := ⟨h2.1, Nat.succ_pos 2, h2.2⟩
  have hR2 : R2 = 2 * R := by
    have e : (⟨4, ![8, R, 2, 2048]⟩ : Shape).numel = (⟨3, ![8, R2, 2048]⟩ : Shape).numel := h1
    simp [Shape.numel, Fin.prod_univ_succ] at e
    omega
  subst hR2
  have hrow : ∀ k : Fin 2, 2 * r.val + k.val < 2 * R := fun k => by have := r.isLt; have := k.isLt; omega
  have hL : ∀ k : Fin 2, shapeCast ⟨4, ![8, R, 2, 2048]⟩ x h1 (h2r.lift (ix3 b r (col d q)) k)
      = x (ix3 b ⟨2 * r.val + k.val, hrow k⟩ (col d q)) := fun k =>
    shapeCast_apply x h1 _ _ (by
      rw [Shape.rowMajor_val_three, Shape.rowMajor_val_four]
      show (b.val * (2 * R) + (2 * r.val + k.val)) * 2048 + (col d q).val
        = ((b.val * R + r.val) * 2 + k.val) * 2048 + (col d q).val
      ring)
  have hK : ∀ k : Fin 2, shapeCast ⟨3, ![R, 2, 256]⟩ (tile b d x) g1 (g2.lift (ix2 r q) k)
      = x (ix3 b ⟨2 * r.val + k.val, hrow k⟩ (col d q)) := fun k =>
    (shapeCast_apply (tile b d x) g1 _ (ix2 ⟨2 * r.val + k.val, hrow k⟩ q) (by
      rw [Shape.rowMajor_val_two, Shape.rowMajor_val_three]
      show (2 * r.val + k.val) * 256 + q.val = (r.val * 2 + k.val) * 256 + q.val
      ring)).trans rfl
  rw [tile_apply]
  show Ideal.div (Ideal.hostReduceAdd h2 (shapeCast ⟨4, ![8, R, 2, 2048]⟩ x h1) (Ideal.ofBits .f32 0x00000000#32) (ix3 b r (col d q)))
      (Ideal.ofBits .f32 0x40000000#32)
    = Ideal.div (multiReduction .add [1] ⟨2, ![R, 256]⟩ (shapeCast ⟨3, ![R, 2, 256]⟩ (tile b d x) g1) 0x00000000#32 g2 g3 g4 (ix2 r q))
      (Ideal.ofBits .f32 0x40000000#32)
  rw [Ideal.hostReduceAdd_single h2 h2r, Ideal.multiReduction_add_single, Ideal.ofBits_zero_f32, zero_add]
  congr 1
  exact Finset.sum_congr rfl fun k _ => (hL k).trans (hK k).symm

/-- One piece of a row-axis concatenation of any number of arrays, against the same piece of the concatenation of their
    tiles: at a row inside piece `k` (the pieces before it have `pre` rows in all) both read piece `k` at row `r - pre`. -/
theorem tile_concat_piece {R : ℕ} (b d : Fin 8)
    (xs : List ((s : Shape) × (s.Idx → α))) (ys : List ((s : Shape) × (s.Idx → α)))
    (h : Shape.Concatenates (xs.map (·.1)) ⟨3, ![8, R, 2048]⟩ 1) (h' : Shape.Concatenates (ys.map (·.1)) ⟨2, ![R, 256]⟩ 0)
    (r : Fin R) (q : Fin 256)
    (k : ℕ) (hk : k < xs.length) (hk' : k < ys.length) (Rk : ℕ) (xk : (⟨3, ![8, Rk, 2048]⟩ : Shape).Idx → α)
    (hxk : xs[k] = ⟨⟨3, ![8, Rk, 2048]⟩, xk⟩) (hyk : ys[k] = ⟨⟨2, ![Rk, 256]⟩, tile b d xk⟩)
    (pre : ℕ)
    (hpre : (((xs.take k).map (·.1)).map fun s : Shape =>
      if h : s.rank = (⟨3, ![8, R, 2048]⟩ : Shape).rank then s.size ((1 : Fin 3).cast h.symm) else 0).sum = pre)
    (hpre' : (((ys.take k).map (·.1)).map fun s : Shape =>
      if h : s.rank = (⟨2, ![R, 256]⟩ : Shape).rank then s.size ((0 : Fin 2).cast h.symm) else 0).sum = pre)
    (hlo : pre ≤ r.val) (hhi : r.val < pre + Rk) :
    concatenate ⟨3, ![8, R, 2048]⟩ 1 xs h (ix3 b r (col d q)) = concatenate ⟨2, ![R, 256]⟩ 0 ys h' (ix2 r q) := by
  have hsub : r.val - pre < Rk := by omega
  rw [concatenate_apply_piece 1 xs h _ k hk _ xk hxk rfl pre hpre (ix3 b ⟨r.val - pre, hsub⟩ (col d q))
    (fun a ha => by match a with | ⟨0, _⟩ => rfl | ⟨1, _⟩ => exact absurd rfl ha | ⟨2, _⟩ => rfl)
    (by show pre + (r.val - pre) = r.val; omega)]
  rw [concatenate_apply_piece 0 ys h' _ k hk' _ (tile b d xk) hyk rfl pre hpre' (ix2 ⟨r.val - pre, hsub⟩ q)
    (fun a ha => by match a with | ⟨0, _⟩ => exact absurd rfl ha | ⟨1, _⟩ => rfl)
    (by show pre + (r.val - pre) = r.val; omega)]
  rfl

/-- Nine arrays of 2, 4, 8, 16, 32, 64, 128, 256 and 2048 rows laid end to end, cut to a tile, are their nine tiles laid
    end to end: row `r` falls in the piece whose span `[0,2), [2,6), [6,14), [14,30), [30,62), [62,126), [126,254),
    [254,510), [510,2558)` holds it. -/
theorem tile_concat9 (b d : Fin 8)
    (x0 : (⟨3, ![8, 2, 2048]⟩ : Shape).Idx → α) (x1 : (⟨3, ![8, 4, 2048]⟩ : Shape).Idx → α)
    (x2 : (⟨3, ![8, 8, 2048]⟩ : Shape).Idx → α) (x3 : (⟨3, ![8, 16, 2048]⟩ : Shape).Idx → α)
    (x4 : (⟨3, ![8, 32, 2048]⟩ : Shape).Idx → α) (x5 : (⟨3, ![8, 64, 2048]⟩ : Shape).Idx → α)
    (x6 : (⟨3, ![8, 128, 2048]⟩ : Shape).Idx → α) (x7 : (⟨3, ![8, 256, 2048]⟩ : Shape).Idx → α)
    (x8 : (⟨3, ![8, 2048, 2048]⟩ : Shape).Idx → α)
    (h : Shape.Concatenates [⟨3, ![8, 2, 2048]⟩, ⟨3, ![8, 4, 2048]⟩, ⟨3, ![8, 8, 2048]⟩, ⟨3, ![8, 16, 2048]⟩, ⟨3, ![8, 32, 2048]⟩,
      ⟨3, ![8, 64, 2048]⟩, ⟨3, ![8, 128, 2048]⟩, ⟨3, ![8, 256, 2048]⟩, ⟨3, ![8, 2048, 2048]⟩] ⟨3, ![8, 2558, 2048]⟩ 1)
    (h' : Shape.Concatenates [⟨2, ![2, 256]⟩, ⟨2, ![4, 256]⟩, ⟨2, ![8, 256]⟩, ⟨2, ![16, 256]⟩, ⟨2, ![32, 256]⟩,
      ⟨2, ![64, 256]⟩, ⟨2, ![128, 256]⟩, ⟨2, ![256, 256]⟩, ⟨2, ![2048, 256]⟩] ⟨2, ![2558, 256]⟩ 0) :
    tile b d (concatenate ⟨3, ![8, 2558, 2048]⟩ 1 [⟨⟨3, ![8, 2, 2048]⟩, x0⟩, ⟨⟨3, ![8, 4, 2048]⟩, x1⟩, ⟨⟨3, ![8, 8, 2048]⟩, x2⟩,
        ⟨⟨3, ![8, 16, 2048]⟩, x3⟩, ⟨⟨3, ![8, 32, 2048]⟩, x4⟩, ⟨⟨3, ![8, 64, 2048]⟩, x5⟩, ⟨⟨3, ![8, 128, 2048]⟩, x6⟩,
        ⟨⟨3, ![8, 256, 2048]⟩, x7⟩, ⟨⟨3, ![8, 2048, 2048]⟩, x8⟩] h)
      = concatenate ⟨2, ![2558, 256]⟩ 0 [⟨⟨2, ![2, 256]⟩, tile b d x0⟩, ⟨⟨2, ![4, 256]⟩, tile b d x1⟩, ⟨⟨2, ![8, 256]⟩, tile b d x2⟩,
        ⟨⟨2, ![16, 256]⟩, tile b d x3⟩, ⟨⟨2, ![32, 256]⟩, tile b d x4⟩, ⟨⟨2, ![64, 256]⟩, tile b d x5⟩, ⟨⟨2, ![128, 256]⟩, tile b d x6⟩,
        ⟨⟨2, ![256, 256]⟩, tile b d x7⟩, ⟨⟨2, ![2048, 256]⟩, tile b d x8⟩] h' := by
  funext j
  obtain ⟨r, q, rfl⟩ : ∃ (r : Fin 2558) (q : Fin 256), j = ix2 r q := ⟨j 0, j 1, eq_ix2 j⟩
  rw [tile_apply]
  have hr := r.isLt
  have key := tile_concat_piece b d
    [⟨⟨3, ![8, 2, 2048]⟩, x0⟩, ⟨⟨3, ![8, 4, 2048]⟩, x1⟩, ⟨⟨3, ![8, 8, 2048]⟩, x2⟩,
      ⟨⟨3, ![8, 16, 2048]⟩, x3⟩, ⟨⟨3, ![8, 32, 2048]⟩, x4⟩, ⟨⟨3, ![8, 64, 2048]⟩, x5⟩, ⟨⟨3, ![8, 128, 2048]⟩, x6⟩,
      ⟨⟨3, ![8, 256, 2048]⟩, x7⟩, ⟨⟨3, ![8, 2048, 2048]⟩, x8⟩]
    [⟨⟨2, ![2, 256]⟩, tile b d x0⟩, ⟨⟨2, ![4, 256]⟩, tile b d x1⟩, ⟨⟨2, ![8, 256]⟩, tile b d x2⟩,
      ⟨⟨2, ![16, 256]⟩, tile b d x3⟩, ⟨⟨2, ![32, 256]⟩, tile b d x4⟩, ⟨⟨2, ![64, 256]⟩, tile b d x5⟩, ⟨⟨2, ![128, 256]⟩, tile b d x6⟩,
      ⟨⟨2, ![256, 256]⟩, tile b d x7⟩, ⟨⟨2, ![2048, 256]⟩, tile b d x8⟩] h h' r q
  by_cases c0 : r.val < 2
  · exact key 0 (by simp) (by simp) 2 x0 rfl rfl 0 rfl rfl (by omega) (by omega)
  by_cases c1 : r.val < 6
  · exact key 1 (by simp) (by simp) 4 x1 rfl rfl 2 rfl rfl (by omega) (by omega)
  by_cases c2 : r.val < 14
  · exact key 2 (by simp) (by simp) 8 x2 rfl rfl 6 rfl rfl (by omega) (by omega)
  by_cases c3 : r.val < 30
  · exact key 3 (by simp) (by simp) 16 x3 rfl rfl 14 rfl rfl (by omega) (by omega)
  by_cases c4 : r.val < 62
  · exact key 4 (by simp) (by simp) 32 x4 rfl rfl 30 rfl rfl (by omega) (by omega)
  by_cases c5 : r.val < 126
  · exact key 5 (by simp) (by simp) 64 x5 rfl rfl 62 rfl rfl (by omega) (by omega)
  by_cases c6 : r.val < 254
  · exact key 6 (by simp) (by simp) 128 x6 rfl rfl 126 rfl rfl (by omega) (by omega)
  by_cases c7 : r.val < 510
  · exact key 7 (by simp) (by simp) 256 x7 rfl rfl 254 rfl rfl (by omega) (by omega)
  · exact key 8 (by simp) (by simp) 2048 x8 rfl rfl 510 rfl rfl (by omega) (by omega)

end Cert.LibTile

end
-- ==== Proof.Stages.lean ====
/-
  The helix update, stage by stage, on a tile and on the whole array.

  Both programs run the same chain on the rows of `cat = [memory ; inputs]` (3582 rows): `short = cat[512, 2560)`,
  `helix₀ = [cat[0, 512) ; pool (short[0, 1024))]` where `pool` averages adjacent row pairs, and for the turns
  `k = 1 … 8`, with `n = 2^(8-k)`: `oldₖ = helixₖ₋₁[768, 768 + 2n)`, `compₖ = pool oldₖ`,
  `helixₖ = [helixₖ₋₁[0, 768) ; compₖ]`, `partₖ = [oldₖ[n, 2n) ; compₖ]`; the result is
  `[part₈ ; part₇ ; … ; part₁ ; short]` (2558 rows). The reference runs it on [8, ·, 2048] arrays along axis 1, the
  kernel on one [·, 256] tile per grid point along axis 0. Every step is a row slice, a row concatenation or the pair
  mean, each of which commutes with cutting to a tile, so each of the reference's named intermediate arrays, cut to the
  tile of batch entry `b` and column group `d`, is the kernel's intermediate value computed from the two input blocks,
  once the input blocks are the tiles of the two argument arrays.
-/
import proofs.«175203_j10634339025369_1_alg».proof.Proof.Gen.KernelIdeal.Skeleton
import proofs.«175203_j10634339025369_1_alg».proof.Proof.RefRun
import proofs.«175203_j10634339025369_1_alg».proof.Proof.LibTile

noncomputable section

namespace Cert.Stages

open Idealize.ShloMosaic Idealize.ShloMosaic.TcCoe Idealize.ShloMosaic.StableHlo Idealize.SL.Sem Cert.LibTile
open Cert.KernelIdeal.Gen Cert.ReferenceIdeal.PatchedRun
open Cert.KernelIdeal (S1x2558x256 S1x1024x256 S2558x256 S1024x256 S2048x256 S256x256 S128x256 S64x256 S32x256 S16x256 S8x256
  S4x256 S2x256 S1x256 S768x256 S784x256 S776x256 S772x256 S770x256 S8x2x256 S4x2x256 S2x2x256 S1x2x256)

/-! ## The kernel's later turns, named

The kernel's first four turns are the generated payload terms `k0_pay2 … k0_pay18`; the value it stores is one term of
those (`k0_pay1`). Here its turns 4 to 8 are named one by one, over the same two input blocks. -/

section Kernel
variable (x0 : Vec Ideal S1x2558x256 .f32) (x1 : Vec Ideal S1x1024x256 .f32)

/-- The word of 2 splat over a shape: the divisor of every pair mean. -/
abbrev two (s : Shape) : FVec Ideal s .f32 := broadcast s (Scalar.ofBits .f32 0x40000000#32)

def comp4 : FVec Ideal S16x256 .f32 := divf (k0_pay18 x0 x1) (two S16x256)
def helix4 : FVec Ideal S784x256 .f32 :=
  concatenate S784x256 0 [⟨S768x256, extractStridedSlice S768x256 ![0, 0] (k0_pay15 x0 x1)⟩, ⟨S16x256, comp4 x0 x1⟩]
    concatenates_S768x256_S16x256_S784x256_d0
def part4 : FVec Ideal S32x256 .f32 :=
  concatenate S32x256 0 [⟨S16x256, extractStridedSlice S16x256 ![16, 0] (k0_pay17 x0 x1)⟩, ⟨S16x256, comp4 x0 x1⟩]
    concatenates_S16x256_S16x256_S32x256_d0
def old5 : FVec Ideal S16x256 .f32 := extractStridedSlice S16x256 ![768, 0] (helix4 x0 x1)
def comp5 : FVec Ideal S8x256 .f32 :=
  divf (multiReduction .add [1] S8x256 (shapeCast S8x2x256 (old5 x0 x1)) 0x00000000#32) (two S8x256)
def helix5 : FVec Ideal S776x256 .f32 :=
  concatenate S776x256 0 [⟨S768x256, extractStridedSlice S768x256 ![0, 0] (helix4 x0 x1)⟩, ⟨S8x256, comp5 x0 x1⟩]
    concatenates_S768x256_S8x256_S776x256_d0
def part5 : FVec Ideal S16x256 .f32 :=
  concatenate S16x256 0 [⟨S8x256, extractStridedSlice S8x256 ![8, 0] (old5 x0 x1)⟩, ⟨S8x256, comp5 x0 x1⟩]
    concatenates_S8x256_S8x256_S16x256_d0
def old6 : FVec Ideal S8x256 .f32 := extractStridedSlice S8x256 ![768, 0] (helix5 x0 x1)
def comp6 : FVec Ideal S4x256 .f32 :=
  divf (multiReduction .add [1] S4x256 (shapeCast S4x2x256 (old6 x0 x1)) 0x00000000#32) (two S4x256)
def helix6 : FVec Ideal S772x256 .f32 :=
  concatenate S772x256 0 [⟨S768x256, extractStridedSlice S768x256 ![0, 0] (helix5 x0 x1)⟩, ⟨S4x256, comp6 x0 x1⟩]
    concatenates_S768x256_S4x256_S772x256_d0
def part6 : FVec Ideal S8x256 .f32 :=
  concatenate S8x256 0 [⟨S4x256, extractStridedSlice S4x256 ![4, 0] (old6 x0 x1)⟩, ⟨S4x256, comp6 x0 x1⟩]
    concatenates_S4x256_S4x256_S8x256_d0
def old7 : FVec Ideal S4x256 .f32 := extractStridedSlice S4x256 ![768, 0] (helix6 x0 x1)
def comp7 : FVec Ideal S2x256 .f32 :=
  divf (multiReduction .add [1] S2x256 (shapeCast S2x2x256 (old7 x0 x1)) 0x00000000#32) (two S2x256)
def helix7 : FVec Ideal S770x256 .f32 :=
  concatenate S770x256 0 [⟨S768x256, extractStridedSlice S768x256 ![0, 0] (helix6 x0 x1)⟩, ⟨S2x256, comp7 x0 x1⟩]
    concatenates_S768x256_S2x256_S770x256_d0
def part7 : FVec Ideal S4x256 .f32 :=
  concatenate S4x256 0 [⟨S2x256, extractStridedSlice S2x256 ![2, 0] (old7 x0 x1)⟩, ⟨S2x256, comp7 x0 x1⟩]
    concatenates_S2x256_S2x256_S4x256_d0
def old8 : FVec Ideal S2x256 .f32 := extractStridedSlice S2x256 ![768, 0] (helix7 x0 x1)
def comp8 : FVec Ideal S1x256 .f32 :=
  divf (multiReduction .add [1] S1x256 (shapeCast S1x2x256 (old8 x0 x1)) 0x00000000#32) (two S1x256)
def part8 : FVec Ideal S2x256 .f32 :=
  concatenate S2x256 0 [⟨S1x256, extractStridedSlice S1x256 ![1, 0] (old8 x0 x1)⟩, ⟨S1x256, comp8 x0 x1⟩]
    concatenates_S1x256_S1x256_S2x256_d0

/-- The new memory tile: the eight parts, newest turn first, then the short memory. -/
def newTile : FVec Ideal S2558x256 .f32 :=
  concatenate S2558x256 0 [⟨S2x256, part8 x0 x1⟩, ⟨S4x256, part7 x0 x1⟩, ⟨S8x256, part6 x0 x1⟩, ⟨S16x256, part5 x0 x1⟩,
    ⟨S32x256, part4 x0 x1⟩, ⟨S64x256, k0_pay16 x0 x1⟩, ⟨S128x256, k0_pay12 x0 x1⟩, ⟨S256x256, k0_pay8 x0 x1⟩,
    ⟨S2048x256, k0_pay3 x0 x1⟩]
    concatenates_S2x256_S4x256_S8x256_S16x256_S32x256_S64x256_S128x256_S256x256_S2048x256_S2558x256_d0

/-- The value the kernel stores is the new memory tile, as a one-entry batch. -/
theorem stored_eq : k0_pay1 (k0_pay3 x0 x1) (k0_pay8 x0 x1) (k0_pay12 x0 x1) (k0_pay15 x0 x1) (k0_pay16 x0 x1)
      (k0_pay17 x0 x1) (k0_pay18 x0 x1)
    = shapeCast S1x2558x256 (newTile x0 x1) := rfl

end Kernel

/-! ## The reference's parts and result, named -/

section Reference
open Cert.ReferenceIdeal (S8x2558x2048 S8x2048x2048 S8x256x2048 S8x128x2048 S8x64x2048 S8x32x2048 S8x16x2048 S8x8x2048
  S8x4x2048 S8x2x2048 S8x1x2048)
variable (V0 : Valuation Cert.ReferenceIdeal.τ Cert.ReferenceIdeal.sig (Elt Ideal))

def rpart1 : FVec Ideal S8x256x2048 .f32 :=
  concatenate S8x256x2048 1 [⟨S8x128x2048, extractStridedSlice S8x128x2048 ![0, 128, 0] (res_main_v9 V0)⟩, ⟨S8x128x2048, res_main_v13 V0⟩]
    Cert.ReferenceIdeal.Gen.concatenates_S8x128x2048_S8x128x2048_S8x256x2048_d1
def rpart2 : FVec Ideal S8x128x2048 .f32 :=
  concatenate S8x128x2048 1 [⟨S8x64x2048, extractStridedSlice S8x64x2048 ![0, 64, 0] (res_main_v18 V0)⟩, ⟨S8x64x2048, res_main_v22 V0⟩]
    Cert.ReferenceIdeal.Gen.concatenates_S8x64x2048_S8x64x2048_S8x128x2048_d1
def rpart3 : FVec Ideal S8x64x2048 .f32 :=
  concatenate S8x64x2048 1 [⟨S8x32x2048, extractStridedSlice S8x32x2048 ![0, 32, 0] (res_main_v27 V0)⟩, ⟨S8x32x2048, res_main_v31 V0⟩]
    Cert.ReferenceIdeal.Gen.concatenates_S8x32x2048_S8x32x2048_S8x64x2048_d1
def rpart4 : FVec Ideal S8x32x2048 .f32 :=
  concatenate S8x32x2048 1 [⟨S8x16x2048, extractStridedSlice S8x16x2048 ![0, 16, 0] (res_main_v36 V0)⟩, ⟨S8x16x2048, res_main_v40 V0⟩]
    Cert.ReferenceIdeal.Gen.concatenates_S8x16x2048_S8x16x2048_S8x32x2048_d1
def rpart5 : FVec Ideal S8x16x2048 .f32 :=
  concatenate S8x16x2048 1 [⟨S8x8x2048, extractStridedSlice S8x8x2048 ![0, 8, 0] (res_main_v45 V0)⟩, ⟨S8x8x2048, res_main_v49 V0⟩]
    Cert.ReferenceIdeal.Gen.concatenates_S8x8x2048_S8x8x2048_S8x16x2048_d1
def rpart6 : FVec Ideal S8x8x2048 .f32 :=
  concatenate S8x8x2048 1 [⟨S8x4x2048, extractStridedSlice S8x4x2048 ![0, 4, 0] (res_main_v54 V0)⟩, ⟨S8x4x2048, res_main_v58 V0⟩]
    Cert.ReferenceIdeal.Gen.concatenates_S8x4x2048_S8x4x2048_S8x8x2048_d1
def rpart7 : FVec Ideal S8x4x2048 .f32 :=
  concatenate S8x4x2048 1 [⟨S8x2x2048, extractStridedSlice S8x2x2048 ![0, 2, 0] (res_main_v63 V0)⟩, ⟨S8x2x2048, res_main_v67 V0⟩]
    Cert.ReferenceIdeal.Gen.concatenates_S8x2x2048_S8x2x2048_S8x4x2048_d1
def rpart8 : FVec Ideal S8x2x2048 .f32 :=
  concatenate S8x2x2048 1 [⟨S8x1x2048, extractStridedSlice S8x1x2048 ![0, 1, 0] (res_main_v72 V0)⟩, ⟨S8x1x2048, res_main_v76 V0⟩]
    Cert.ReferenceIdeal.Gen.concatenates_S8x1x2048_S8x1x2048_S8x2x2048_d1

/-- The reference's result array as a term of the argument arrays. -/
def refOut : FVec Ideal S8x2558x2048 .f32 :=
  concatenate S8x2558x2048 1 [⟨S8x2x2048, rpart8 V0⟩, ⟨S8x4x2048, rpart7 V0⟩, ⟨S8x8x2048, rpart6 V0⟩, ⟨S8x16x2048, rpart5 V0⟩,
    ⟨S8x32x2048, rpart4 V0⟩, ⟨S8x64x2048, rpart3 V0⟩, ⟨S8x128x2048, rpart2 V0⟩, ⟨S8x256x2048, rpart1 V0⟩,
    ⟨S8x2048x2048, res_main_v1 V0⟩]
    Cert.ReferenceIdeal.Gen.concatenates_S8x2x2048_S8x4x2048_S8x8x2048_S8x16x2048_S8x32x2048_S8x64x2048_S8x128x2048_S8x256x2048_S8x2048x2048_S8x2558x2048_d1

end Reference

/-! ## Stage by stage -/

section Stages
variable (V0 : Valuation Cert.ReferenceIdeal.τ Cert.ReferenceIdeal.sig (Elt Ideal)) (b d : Fin 8)
variable (x0 : Vec Ideal S1x2558x256 .f32) (x1 : Vec Ideal S1x1024x256 .f32)
variable (hmem : shapeCast S2558x256 x0 shapeCasts_S1x2558x256_S2558x256
    = tile b d (V0 (Proc.devRef .tc Cert.ReferenceIdeal.main_arg1) : FVec Ideal ⟨3, ![8, 2558, 2048]⟩ .f32))
variable (hinp : shapeCast S1024x256 x1 shapeCasts_S1x1024x256_S1024x256
    = tile b d (V0 (Proc.devRef .tc Cert.ReferenceIdeal.main_arg0) : FVec Ideal ⟨3, ![8, 1024, 2048]⟩ .f32))
include hmem hinp

theorem cat_eq : tile b d (res_main_v0 V0 : FVec Ideal ⟨3, ![8, 3582, 2048]⟩ .f32) = k0_pay2 x0 x1 := by
  unfold res_main_v0 k0_pay2
  rw [tile_concat, ← hmem, ← hinp]

theorem short_eq : tile b d (res_main_v1 V0 : FVec Ideal ⟨3, ![8, 2048, 2048]⟩ .f32) = k0_pay3 x0 x1 := by
  unfold res_main_v1 k0_pay3
  rw [tile_slice, cat_eq V0 b d x0 x1 hmem hinp]

theorem helix0_eq : tile b d (res_main_v8 V0 : FVec Ideal ⟨3, ![8, 1024, 2048]⟩ .f32) = k0_pay4 x0 x1 := by
  unfold res_main_v8 k0_pay4
  rw [tile_concat, tile_slice, tile_pool, tile_slice, cat_eq V0 b d x0 x1 hmem hinp, short_eq V0 b d x0 x1 hmem hinp]
  all_goals decide

local notation:max "⟪" t "⟫" => t V0 b d x0 x1 hmem hinp

/-! Turn 1. -/

theorem old1_eq : tile b d (res_main_v9 V0 : FVec Ideal ⟨3, ![8, 256, 2048]⟩ .f32) = k0_pay5 x0 x1 := by
  unfold res_main_v9 k0_pay5
  rw [tile_slice, ⟪helix0_eq⟫]
  all_goals decide

theorem comp1_eq : tile b d (res_main_v13 V0 : FVec Ideal ⟨3, ![8, 128, 2048]⟩ .f32) = k0_pay6 x0 x1 := by
  unfold res_main_v13 k0_pay6
  rw [tile_pool, ⟪old1_eq⟫]
  all_goals decide

theorem helix1_eq : tile b d (res_main_v15 V0 : FVec Ideal ⟨3, ![8, 896, 2048]⟩ .f32) = k0_pay7 x0 x1 := by
  unfold res_main_v15 k0_pay7
  rw [tile_concat, tile_slice, ⟪helix0_eq⟫, ⟪comp1_eq⟫]
  all_goals decide

theorem part1_eq : tile b d (rpart1 V0) = k0_pay8 x0 x1 := by
  unfold rpart1 k0_pay8
  rw [tile_concat, tile_slice, ⟪old1_eq⟫, ⟪comp1_eq⟫]
  all_goals decide

/-! Turn 2. -/

theorem old2_eq : tile b d (res_main_v18 V0 : FVec Ideal ⟨3, ![8, 128, 2048]⟩ .f32) = k0_pay9 x0 x1 := by
  unfold res_main_v18 k0_pay9
  rw [tile_slice, ⟪helix1_eq⟫]
  all_goals decide

theorem comp2_eq : tile b d (res_main_v22 V0 : FVec Ideal ⟨3, ![8, 64, 2048]⟩ .f32) = k0_pay10 x0 x1 := by
  unfold res_main_v22 k0_pay10
  rw [tile_pool, ⟪old2_eq⟫]
  all_goals decide

theorem helix2_eq : tile b d (res_main_v24 V0 : FVec Ideal ⟨3, ![8, 832, 2048]⟩ .f32) = k0_pay11 x0 x1 := by
  unfold res_main_v24 k0_pay11
  rw [tile_concat, tile_slice, ⟪helix1_eq⟫, ⟪comp2_eq⟫]
  all_goals decide

theorem part2_eq : tile b d (rpart2 V0) = k0_pay12 x0 x1 := by
  unfold rpart2 k0_pay12
  rw [tile_concat, tile_slice, ⟪old2_eq⟫, ⟪comp2_eq⟫]
  all_goals decide

/-! Turn 3. -/

theorem old3_eq : tile b d (res_main_v27 V0 : FVec Ideal ⟨3, ![8, 64, 2048]⟩ .f32) = k0_pay13 x0 x1 := by
  unfold res_main_v27 k0_pay13
  rw [tile_slice, ⟪helix2_eq⟫]
  all_goals decide

theorem comp3_eq : tile b d (res_main_v31 V0 : FVec Ideal ⟨3, ![8, 32, 2048]⟩ .f32) = k0_pay14 x0 x1 := by
  unfold res_main_v31 k0_pay14
  rw [tile_pool, ⟪old3_eq⟫]
  all_goals decide

theorem helix3_eq : tile b d (res_main_v33 V0 : FVec Ideal ⟨3, ![8, 800, 2048]⟩ .f32) = k0_pay15 x0 x1 := by
  unfold res_main_v33 k0_pay15
  rw [tile_concat, tile_slice, ⟪helix2_eq⟫, ⟪comp3_eq⟫]
  all_goals decide

theorem part3_eq : tile b d (rpart3 V0) = k0_pay16 x0 x1 := by
  unfold rpart3 k0_pay16
  rw [tile_concat, tile_slice, ⟪old3_eq⟫, ⟪comp3_eq⟫]
  all_goals decide

/-! Turn 4: the kernel's generated terms end at the pair SUM of this turn; from its mean on they are the named ones. -/

theorem old4_eq : tile b d (res_main_v36 V0 : FVec Ideal ⟨3, ![8, 32, 2048]⟩ .f32) = k0_pay17 x0 x1 := by
  unfold res_main_v36 k0_pay17
  rw [tile_slice, ⟪helix3_eq⟫]
  all_goals decide

theorem comp4_eq : tile b d (res_main_v40 V0 : FVec Ideal ⟨3, ![8, 16, 2048]⟩ .f32) = comp4 x0 x1 := by
  unfold res_main_v40 comp4 k0_pay18
  rw [tile_pool, ⟪old4_eq⟫]
  all_goals decide

theorem helix4_eq : tile b d (res_main_v42 V0 : FVec Ideal ⟨3, ![8, 784, 2048]⟩ .f32) = helix4 x0 x1 := by
  unfold res_main_v42 helix4
  rw [tile_concat, tile_slice, ⟪helix3_eq⟫, ⟪comp4_eq⟫]
  all_goals decide

theorem part4_eq : tile b d (rpart4 V0) = part4 x0 x1 := by
  unfold rpart4 part4
  rw [tile_concat, tile_slice, ⟪old4_eq⟫, ⟪comp4_eq⟫]
  all_goals decide

/-! Turn 5. -/

theorem old5_eq : tile b d (res_main_v45 V0 : FVec Ideal ⟨3, ![8, 16, 2048]⟩ .f32) = old5 x0 x1 := by
  unfold res_main_v45 old5
  rw [tile_slice, ⟪helix4_eq⟫]
  all_goals decide

theorem comp5_eq : tile b d (res_main_v49 V0 : FVec Ideal ⟨3, ![8, 8, 2048]⟩ .f32) = comp5 x0 x1 := by
  unfold res_main_v49 comp5
  rw [tile_pool, ⟪old5_eq⟫]
  all_goals decide

theorem helix5_eq : tile b d (res_main_v51 V0 : FVec Ideal ⟨3, ![8, 776, 2048]⟩ .f32) = helix5 x0 x1 := by
  unfold res_main_v51 helix5
  rw [tile_concat, tile_slice, ⟪helix4_eq⟫, ⟪comp5_eq⟫]
  all_goals decide

theorem part5_eq : tile b d (rpart5 V0) = part5 x0 x1 := by
  unfold rpart5 part5
  rw [tile_concat, tile_slice, ⟪old5_eq⟫, ⟪comp5_eq⟫]
  all_goals decide

/-! Turn 6. -/

theorem old6_eq : tile b d (res_main_v54 V0 : FVec Ideal ⟨3, ![8, 8, 2048]⟩ .f32) = old6 x0 x1 := by
  unfold res_main_v54 old6
  rw [tile_slice, ⟪helix5_eq⟫]
  all_goals decide

theorem comp6_eq : tile b d (res_main_v58 V0 : FVec Ideal ⟨3, ![8, 4, 2048]⟩ .f32) = comp6 x0 x1 := by
  unfold res_main_v58 comp6
  rw [tile_pool, ⟪old6_eq⟫]
  all_goals decide

theorem helix6_eq : tile b d (res_main_v60 V0 : FVec Ideal ⟨3, ![8, 772, 2048]⟩ .f32) = helix6 x0 x1 := by
  unfold res_main_v60 helix6
  rw [tile_concat, tile_slice, ⟪helix5_eq⟫, ⟪comp6_eq⟫]
  all_goals decide

theorem part6_eq : tile b d (rpart6 V0) = part6 x0 x1 := by
  unfold rpart6 part6
  rw [tile_concat, tile_slice, ⟪old6_eq⟫, ⟪comp6_eq⟫]
  all_goals decide

/-! Turn 7. -/

theorem old7_eq : tile b d (res_main_v63 V0 : FVec Ideal ⟨3, ![8, 4, 2048]⟩ .f32) = old7 x0 x1 := by
  unfold res_main_v63 old7
  rw [tile_slice, ⟪helix6_eq⟫]
  all_goals decide

theorem comp7_eq : tile b d (res_main_v67 V0 : FVec Ideal ⟨3, ![8, 2, 2048]⟩ .f32) = comp7 x0 x1 := by
  unfold res_main_v67 comp7
  rw [tile_pool, ⟪old7_eq⟫]
  all_goals decide

theorem helix7_eq : tile b d (res_main_v69 V0 : FVec Ideal ⟨3, ![8, 770, 2048]⟩ .f32) = helix7 x0 x1 := by
  unfold res_main_v69 helix7
  rw [tile_concat, tile_slice, ⟪helix6_eq⟫, ⟪comp7_eq⟫]
  all_goals decide

theorem part7_eq : tile b d (rpart7 V0) = part7 x0 x1 := by
  unfold rpart7 part7
  rw [tile_concat, tile_slice, ⟪old7_eq⟫, ⟪comp7_eq⟫]
  all_goals decide

/-! Turn 8. -/

theorem old8_eq : tile b d (res_main_v72 V0 : FVec Ideal ⟨3, ![8, 2, 2048]⟩ .f32) = old8 x0 x1 := by
  unfold res_main_v72 old8
  rw [tile_slice, ⟪helix7_eq⟫]
  all_goals decide

theorem comp8_eq : tile b d (res_main_v76 V0 : FVec Ideal ⟨3, ![8, 1, 2048]⟩ .f32) = comp8 x0 x1 := by
  unfold res_main_v76 comp8
  rw [tile_pool, ⟪old8_eq⟫]
  all_goals decide

theorem part8_eq : tile b d (rpart8 V0) = part8 x0 x1 := by
  unfold rpart8 part8
  rw [tile_concat, tile_slice, ⟪old8_eq⟫, ⟪comp8_eq⟫]
  all_goals decide

/-- The reference's result, cut to the tile, is the kernel's new memory tile. -/
theorem out_eq : tile b d (refOut V0) = newTile x0 x1 := by
  unfold refOut newTile
  rw [tile_concat9, ⟪part8_eq⟫, ⟪part7_eq⟫, ⟪part6_eq⟫, ⟪part5_eq⟫, ⟪part4_eq⟫, ⟪part3_eq⟫, ⟪part2_eq⟫, ⟪part1_eq⟫,
    ⟪short_eq⟫]
  all_goals decide

end Stages

end Cert.Stages

end
-- ==== Proof.TileBlocks.lean ====
/-
  From tiles to the array: the kernel's run leaves the reference's result term in the output array.

  Grid point `t` of the 8 × 8 grid is a batch entry `b` and a column group `d`. Its two input blocks are the [·, 256] tiles
  (`b`, `d`) of the two argument arrays; what it writes back is, by the stage-by-stage comparison, the tile (`b`, `d`) of
  the reference's result term over the same arrays, as a [1, 2558, 256] block; and the 64 blocks cover the output array.
-/
import proofs.«175203_j10634339025369_1_alg».proof.Proof.Gen.KernelIdeal.Value
import proofs.«175203_j10634339025369_1_alg».proof.Proof.Stages
import Idealize.ShloMosaic.Lib.Pipeline.Value
import Idealize.ShloMosaic.Lib.Tactic

noncomputable section

namespace Cert.KernelIdeal.RefValue

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.KernelIdeal.Value Cert.LibTile Cert.Stages

variable (m : (ℓ : Loc nD τ sig) → Buf (Elt Ideal) ℓ) (ρ : Dev nD → PrngReg)

theorem hz3 : (![0, 0, 0] : Fin 3 → Nat) = fun _ => 0 := funext fun a => by fin_cases a <;> rfl

/-- The three index maps over the grid: all three windows sit at block (b, 0, d) of their arrays, `b` and `d` below 8. -/
theorem idx_facts : ∀ t : Fin cfg0.N,
    win0_0.index t (0 : Fin 3) = win0_2.index t (0 : Fin 3) ∧ win0_0.index t (1 : Fin 3) = 0
    ∧ win0_0.index t (2 : Fin 3) = win0_2.index t (2 : Fin 3)
    ∧ win0_1.index t (0 : Fin 3) = win0_2.index t (0 : Fin 3) ∧ win0_1.index t (1 : Fin 3) = 0
    ∧ win0_1.index t (2 : Fin 3) = win0_2.index t (2 : Fin 3)
    ∧ win0_2.index t (0 : Fin 3) < 8 ∧ win0_2.index t (1 : Fin 3) = 0 ∧ win0_2.index t (2 : Fin 3) < 8 :=
  (by decide +kernel : ∀ t : Fin grid0.N, _)

/-- Every (batch entry, column group) pair is some grid point's. -/
theorem idx_onto : ∀ (q0 : Fin 8) (q2 : Fin 8), ∃ t : Fin cfg0.N, win0_2.index t = ![q0.val, 0, q2.val] :=
  (by decide +kernel : ∀ (q0 : Fin 8) (q2 : Fin 8), ∃ t : Fin grid0.N, win0_2.index t = ![q0.val, 0, q2.val])

/-- The batch entry of grid point `t`. -/
def bOf (t : Fin cfg0.N) : Fin 8 := ⟨win0_2.index t (0 : Fin 3), (idx_facts t).2.2.2.2.2.2.1⟩
/-- The column group of grid point `t`. -/
def dOf (t : Fin cfg0.N) : Fin 8 := ⟨win0_2.index t (2 : Fin 3), (idx_facts t).2.2.2.2.2.2.2.2⟩

/-- The memory block at point `t`, its unit batch axis dropped, is the tile (`b`, `d`) of the memory array. -/
theorem mem_block (c : Dev nD) (t : Fin cfg0.N) :
    shapeCast S2558x256 (View.ld (iblk m c 0 t) r0_0) shapeCasts_S1x2558x256_S2558x256
      = tile (bOf t) (dOf t) (V m c main_arg1 : FVec Ideal ⟨3, ![8, 2558, 2048]⟩ .f32) := by
  funext j
  obtain ⟨r, q, rfl⟩ : ∃ (r : Fin 2558) (q : Fin 256), j = ix2 r q := ⟨j 0, j 1, eq_ix2 j⟩
  rw [shapeCast_dropUnit_apply, View.ld_unit_zero (S := S1x2558x256) hz3, tile_apply]
  unfold iblk
  rw [View.read_apply]
  show V m c main_arg1 _ = V m c main_arg1 _
  congr 1
  funext a
  apply Fin.ext
  obtain ⟨e0, e1, e2, -⟩ := idx_facts t
  match a with
  | ⟨0, _⟩ => show win0_0.index t (0 : Fin 3) * 1 + 1 * 0 = win0_2.index t (0 : Fin 3); omega
  | ⟨1, _⟩ => show win0_0.index t (1 : Fin 3) * 2558 + 1 * r.val = r.val; omega
  | ⟨2, _⟩ => show win0_0.index t (2 : Fin 3) * 256 + 1 * q.val = 256 * win0_2.index t (2 : Fin 3) + q.val; omega

/-- The inputs block at point `t`, its unit batch axis dropped, is the tile (`b`, `d`) of the inputs array. -/
theorem inp_block (c : Dev nD) (t : Fin cfg0.N) :
    shapeCast S1024x256 (View.ld (iblk m c 1 t) r0_1) shapeCasts_S1x1024x256_S1024x256
      = tile (bOf t) (dOf t) (V m c main_arg0 : FVec Ideal ⟨3, ![8, 1024, 2048]⟩ .f32) := by
  funext j
  obtain ⟨r, q, rfl⟩ : ∃ (r : Fin 1024) (q : Fin 256), j = ix2 r q := ⟨j 0, j 1, eq_ix2 j⟩
  rw [shapeCast_dropUnit_apply, View.ld_unit_zero (S := S1x1024x256) hz3, tile_apply]
  unfold iblk
  rw [View.read_apply]
  show V m c main_arg0 _ = V m c main_arg0 _
  congr 1
  funext a
  apply Fin.ext
  obtain ⟨-, -, -, e0, e1, e2, -⟩ := idx_facts t
  match a with
  | ⟨0, _⟩ => show win0_1.index t (0 : Fin 3) * 1 + 1 * 0 = win0_2.index t (0 : Fin 3); omega
  | ⟨1, _⟩ => show win0_1.index t (1 : Fin 3) * 1024 + 1 * r.val = r.val; omega
  | ⟨2, _⟩ => show win0_1.index t (2 : Fin 3) * 256 + 1 * q.val = 256 * win0_2.index t (2 : Fin 3) + q.val; omega

section Against
variable (V0 : Valuation Cert.ReferenceIdeal.τ Cert.ReferenceIdeal.sig (Elt Ideal)) (c : Dev nD)
variable (h1 : (V0 (Proc.devRef .tc Cert.ReferenceIdeal.main_arg1) : FVec Ideal ⟨3, ![8, 2558, 2048]⟩ .f32) = V m c main_arg1)
variable (h0 : (V0 (Proc.devRef .tc Cert.ReferenceIdeal.main_arg0) : FVec Ideal ⟨3, ![8, 1024, 2048]⟩ .f32) = V m c main_arg0)
include h1 h0

/-- WHAT POINT `t` WRITES BACK is block `t` of the reference's result term over the same argument arrays. -/
theorem flushed_eq (t : Fin cfg0.N) :
    (dats m 0 c).flushed 2 t = ((cfg0.win 2).blk t).view.read (Elt Ideal) (refOut V0) := by
  rw [flushed2]
  unfold out0_2
  rw [View.canon_unit_zero hz3, stored_eq]
  have hm := mem_block m c t
  have hi := inp_block m c t
  rw [← h1] at hm
  rw [← h0] at hi
  funext y
  show shapeCast S1x2558x256 (newTile (View.ld (iblk m c 0 t) r0_0) (View.ld (iblk m c 1 t) r0_1)) shapeCasts_S2558x256_S1x2558x256 y
    = refOut V0 (((cfg0.win 2).blk t).view.emb y)
  rw [shapeCast_addUnit_apply, ← out_eq V0 (bOf t) (dOf t) _ _ hm hi]
  show refOut V0 _ = refOut V0 _
  congr 1
  funext a
  apply Fin.ext
  obtain ⟨-, -, -, -, -, -, -, e1, -⟩ := idx_facts t
  have hy0 : (y 0).val < 1 := (y 0).isLt
  match a with
  | ⟨0, _⟩ => show win0_2.index t (0 : Fin 3) = win0_2.index t (0 : Fin 3) * 1 + 1 * (y 0).val; omega
  | ⟨1, _⟩ => show (y 1).val = win0_2.index t (1 : Fin 3) * 2558 + 1 * (y 1).val; omega
  | ⟨2, _⟩ => show 256 * win0_2.index t (2 : Fin 3) + (y 2).val = win0_2.index t (2 : Fin 3) * 256 + 1 * (y 2).val; omega

end Against

/-- An index of the output array is in point `t`'s block iff each coordinate is in the block's range on its axis. -/
theorem mem_blk (t : Fin cfg0.N) (i : S8x2558x2048.Idx) :
    i ∈ ((cfg0.win 2).blk t).view.set ↔ ∀ a : Fin 3, win0_2.index t a * S1x2558x256.size a ≤ (i a).val
      ∧ (i a).val < win0_2.index t a * S1x2558x256.size a + S1x2558x256.size a := by
  show i ∈ ((View.whole main_v0).slice (win0_2.rect t)).set ↔ _
  rw [View.set_slice_whole, Rect.mem_set_unit]
  exact Iff.rfl

/-- The 64 blocks cover the output array: index (b, r, x) is in the block of the point at (b, x / 256). -/
theorem cover (i : S8x2558x2048.Idx) : ∃ t : Fin cfg0.N, (cfg0.win 2).flush t = true ∧ i ∈ ((cfg0.win 2).blk t).view.set := by
  have hi0 : (i 0).val < 8 := (i 0).isLt
  have hi1 : (i 1).val < 2558 := (i 1).isLt
  have hi2 : (i 2).val < 2048 := (i 2).isLt
  obtain ⟨t, ht⟩ := idx_onto ⟨(i 0).val, hi0⟩ ⟨(i 2).val / 256, by omega⟩
  have q0 : win0_2.index t (0 : Fin 3) = (i 0).val := congrFun ht 0
  have q1 : win0_2.index t (1 : Fin 3) = 0 := congrFun ht 1
  have q2 : win0_2.index t (2 : Fin 3) = (i 2).val / 256 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2558 ≤ (i 1).val ∧ (i 1).val < win0_2.index t (1 : Fin 3) * 2558 + 2558; omega
  | ⟨2, _⟩ => show win0_2.index t (2 : Fin 3) * 256 ≤ (i 2).val ∧ (i 2).val < win0_2.index t (2 : Fin 3) * 256 + 256; omega

/-- THE OUTPUT ARRAY after the run is the reference's result term over the argument arrays. -/
theorem final (V0 : Valuation Cert.ReferenceIdeal.τ Cert.ReferenceIdeal.sig (Elt Ideal)) (c : Dev nD)
    (h1 : (V0 (Proc.devRef .tc Cert.ReferenceIdeal.main_arg1) : FVec Ideal ⟨3, ![8, 2558, 2048]⟩ .f32) = V m c main_arg1)
    (h0 : (V0 (Proc.devRef .tc Cert.ReferenceIdeal.main_arg0) : FVec Ideal ⟨3, ![8, 1024, 2048]⟩ .f32) = V m c main_arg0) :
    (dats m 0 c).arrAt 2 cfg0.N = refOut V0 :=
  (dats m 0 c).arrAt_eq_of_cover 2 (refOut V0) (fun t _ => flushed_eq m V0 c h1 h0 t) cover

end Cert.KernelIdeal.RefValue

end
-- ==== Proof.lean ====
/-
  The helix memory update (`scatter_memory`): the Pallas kernel against its jnp reference, over the extended reals.

  Both programs compute, from `memory` [8, 2558, 2048] and `inputs` [8, 1024, 2048], the same chain along the row axis:
  with `cat = [memory ; inputs]`, `short = cat[512, 2560)`, `helix₀ = [cat[0, 512) ; pool (short[0, 1024))]` (`pool` the mean
  of adjacent row pairs, written `(0 + x₂ᵣ + x₂ᵣ₊₁) / 2` on the host and `(x₂ᵣ + x₂ᵣ₊₁) / 2` in the kernel, the divisor the
  same word on both sides), and for eight turns `oldₖ = helixₖ₋₁[768, …)`, `compₖ = pool oldₖ`,
  `helixₖ = [helixₖ₋₁[0, 768) ; compₖ]`, `partₖ = [second half of oldₖ ; compₖ]`; the result is
  `[part₈ ; … ; part₁ ; short]`. The reference runs the chain on whole arrays; the kernel runs it at each point of an
  8 × 8 grid on the [·, 256] tile of one batch entry and one group of 256 columns. Since every step acts on the row
  coordinate alone, cutting to a tile commutes with every step (Proof/LibTile.lean), so every intermediate array of the
  reference cut to the tile is the kernel's intermediate value (Proof/Stages.lean); the 64 written blocks cover the output
  array, which therefore ends at the reference's result term (Proof/TileBlocks.lean). No law of the extended reals beyond
  `0 + x = x` is used, so the precondition is never opened. The ideal pass rewrote nothing, so `preserves` is `True`.
-/
import proofs.«175203_j10634339025369_1_alg».proof.Defs
import proofs.«175203_j10634339025369_1_alg».proof.Proof.Gen.Kernel
import proofs.«175203_j10634339025369_1_alg».proof.Proof.Gen.Kernel.Skeleton
import proofs.«175203_j10634339025369_1_alg».proof.Proof.Gen.Kernel.Launch
import proofs.«175203_j10634339025369_1_alg».proof.Proof.Gen.Kernel.Points
import proofs.«175203_j10634339025369_1_alg».proof.Proof.Gen.Kernel.Frame
import proofs.«175203_j10634339025369_1_alg».proof.Proof.Gen.KernelIdeal
import proofs.«175203_j10634339025369_1_alg».proof.Proof.Gen.KernelIdeal.Skeleton
import proofs.«175203_j10634339025369_1_alg».proof.Proof.Gen.KernelIdeal.Launch
import proofs.«175203_j10634339025369_1_alg».proof.Proof.Gen.KernelIdeal.Points
import proofs.«175203_j10634339025369_1_alg».proof.Proof.Gen.KernelIdeal.Frame
import proofs.«175203_j10634339025369_1_alg».proof.Proof.Gen.ReferenceIdeal
import proofs.«175203_j10634339025369_1_alg».proof.Proof.Gen.Pre_finite_inputs
import proofs.«175203_j10634339025369_1_alg».proof.Proof.Gen.KernelIdeal.Value
import proofs.«175203_j10634339025369_1_alg».proof.Proof.RefRun
import proofs.«175203_j10634339025369_1_alg».proof.Proof.TileBlocks
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.PatchedRun.run (F := Ideal) m ρ)

/-- Both runs end with the output array at the reference's result term over the (agreeing) argument arrays. -/
theorem algebraic : Cert.algebraic_KernelIdeal_ReferenceIdeal := by
  intro m ρ m' ρ' _ hagree
  refine ⟨fun c => Cert.Stages.refOut (launchContents m' c), ?_, ?_⟩
  · exact (θ_run Cert.KernelIdeal.defs _ _).mono
      (fun r h c => ⟨(h c).1.trans
        (Cert.KernelIdeal.RefValue.final m (launchContents m' c) c (hagree c).2 (hagree c).1), (h c).2⟩)
      (Cert.KernelIdeal.Value.run_blocks m ρ)
  · exact Cert.ReferenceIdeal.PatchedRun.run (F := Ideal) m' ρ'

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
